-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x14 : Shape := ⟨2, ![2000000, 14]⟩
abbrev S_ : Shape := ⟨0, ![]⟩
abbrev S4 : Shape := ⟨1, ![4]⟩

class Facts : Prop where
  bcast_S_S2000000x14 : S_.BroadcastsInDim S2000000x14 (![] : Fin 0 → Fin S2000000x14.rank)
  reducesTo_S2000000x14_S_d0_1 : S2000000x14.ReducesTo [0, 1] S_
  h_S_ : 0 < S_.numel
  reducesTo_S_S_d : S_.ReducesTo [] S_

variable [Facts]

def fn {F : FTy → Type} [FloatOps F] (main_arg0 : FVec F S2000000x14 .f32) (main_arg1 : FVec F S_ .f32) (main_arg2 : IVec S4 32) (main_arg3 : IVec S4 32) : IVec S_ 1 :=
  let main_v0 : FVec F S2000000x14 .f32 := Host.absf main_arg0
  let main_cst : FVec F S_ .f32 := constant S_ .f32 0x7F800000#32
  let main_v1 : FVec F S2000000x14 .f32 := broadcastInDim S2000000x14 ![] bcast_S_S2000000x14 main_cst
  let main_v2 : IVec S2000000x14 1 := cmpf .olt main_v0 main_v1
  let main_c : IVec S_ 1 := constantI S_ 1 1#1
  let main_v3 : IVec S_ 1 := (fun x v => Host.reduce IntOp.andi x v reducesTo_S2000000x14_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  main_v7
-- ==== Kernel.lean ====
abbrev S2000000x14 : Shape := ⟨2, ![2000000, 14]⟩
abbrev S_ : Shape := ⟨0, ![]⟩
abbrev S4 : Shape := ⟨1, ![4]⟩
abbrev S250000x112 : Shape := ⟨2, ![250000, 112]⟩
abbrev S4x1 : Shape := ⟨2, ![4, 1]⟩
abbrev S1x14 : Shape := ⟨2, ![1, 14]⟩
abbrev S4x14 : Shape := ⟨2, ![4, 14]⟩
abbrev S14x4 : Shape := ⟨2, ![14, 4]⟩
abbrev S8x8 : Shape := ⟨2, ![8, 8]⟩
abbrev S8x1x8x1 : Shape := ⟨4, ![8, 1, 8, 1]⟩
abbrev S1x14x1x4 : Shape := ⟨4, ![1, 14, 1, 4]⟩
abbrev S8x14x8x4 : Shape := ⟨4, ![8, 14, 8, 4]⟩
abbrev S112x32 : Shape := ⟨2, ![112, 32]⟩
abbrev S4x4 : Shape := ⟨2, ![4, 4]⟩
abbrev S1x4x1x4 : Shape := ⟨4, ![1, 4, 1, 4]⟩
abbrev S8x4x1x4 : Shape := ⟨4, ![8, 4, 1, 4]⟩
abbrev S32x4 : Shape := ⟨2, ![32, 4]⟩
abbrev S2x1x4 : Shape := ⟨3, ![2, 1, 4]⟩
abbrev S5000x112 : Shape := ⟨2, ![5000, 112]⟩
abbrev S1x1x4 : Shape := ⟨3, ![1, 1, 4]⟩
abbrev S5000x32 : Shape := ⟨2, ![5000, 32]⟩
abbrev S32 : Shape := ⟨1, ![32]⟩
abbrev S1x32 : Shape := ⟨2, ![1, 32]⟩
abbrev S1x4 : Shape := ⟨2, ![1, 4]⟩

abbrev nBuf : Space → Nat
  | .hbm => 86
  | .vmem => 6
  | .smem => 0
  | _ => 0

abbrev bufTy : (tb : Table) → Fin (tcTables nBuf tb) → BufTy
  | .hbm, ⟨0, _⟩ => ⟨S2000000x14, .f32⟩
  | .hbm, ⟨1, _⟩ => ⟨S_, .f32⟩
  | .hbm, ⟨2, _⟩ => ⟨S4, .i32⟩
  | .hbm, ⟨3, _⟩ => ⟨S4, .i32⟩
  | .hbm, ⟨4, _⟩ => ⟨S250000x112, .f32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i1⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S4, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S_, .i32⟩
  | .hbm, ⟨33, _⟩ => ⟨S4, .i32⟩
  | .hbm, ⟨34, _⟩ => ⟨S4, .i32⟩
  | .hbm, ⟨35, _⟩ => ⟨S4x1, .i32⟩
  | .hbm, ⟨36, _⟩ => ⟨S1x14, .i32⟩
  | .hbm, ⟨37, _⟩ => ⟨S4x14, .i32⟩
  | .hbm, ⟨38, _⟩ => ⟨S4x14, .i32⟩
  | .hbm, ⟨39, _⟩ => ⟨S4x14, .i1⟩
  | .hbm, ⟨40, _⟩ => ⟨S4x14, .f32⟩
  | .hbm, ⟨41, _⟩ => ⟨S14x4, .f32⟩
  | .hbm, ⟨42, _⟩ => ⟨S4x1, .i32⟩
  | .hbm, ⟨43, _⟩ => ⟨S1x14, .i32⟩
  | .hbm, ⟨44, _⟩ => ⟨S4x14, .i32⟩
  | .hbm, ⟨45, _⟩ => ⟨S4x14, .i32⟩
  | .hbm, ⟨46, _⟩ => ⟨S4x14, .i1⟩
  | .hbm, ⟨47, _⟩ => ⟨S4x14, .f32⟩
  | .hbm, ⟨48, _⟩ => ⟨S14x4, .f32⟩
  | .hbm, ⟨49, _⟩ => ⟨S8x8, .i32⟩
  | .hbm, ⟨50, _⟩ => ⟨S8x8, .i32⟩
  | .hbm, ⟨51, _⟩ => ⟨S_, .i32⟩
  | .hbm, ⟨52, _⟩ => ⟨S8x8, .i32⟩
  | .hbm, ⟨53, _⟩ => ⟨S8x8, .i32⟩
  | .hbm, ⟨54, _⟩ => ⟨S8x8, .i1⟩
  | .hbm, ⟨55, _⟩ => ⟨S8x8, .f32⟩
  | .hbm, ⟨56, _⟩ => ⟨S14x4, .f32⟩
  | .hbm, ⟨57, _⟩ => ⟨S8x1x8x1, .f32⟩
  | .hbm, ⟨58, _⟩ => ⟨S1x14x1x4, .f32⟩
  | .hbm, ⟨59, _⟩ => ⟨S8x14x8x4, .f32⟩
  | .hbm, ⟨60, _⟩ => ⟨S8x14x8x4, .f32⟩
  | .hbm, ⟨61, _⟩ => ⟨S8x14x8x4, .f32⟩
  | .hbm, ⟨62, _⟩ => ⟨S112x32, .f32⟩
  | .hbm, ⟨63, _⟩ => ⟨S4x4, .i32⟩
  | .hbm, ⟨64, _⟩ => ⟨S4x4, .i32⟩
  | .hbm, ⟨65, _⟩ => ⟨S_, .i32⟩
  | .hbm, ⟨66, _⟩ => ⟨S4x4, .i32⟩
  | .hbm, ⟨67, _⟩ => ⟨S4x4, .i32⟩
  | .hbm, ⟨68, _⟩ => ⟨S4x4, .i1⟩
  | .hbm, ⟨69, _⟩ => ⟨S4x4, .f32⟩
  | .hbm, ⟨70, _⟩ => ⟨S1x4x1x4, .f32⟩
  | .hbm, ⟨71, _⟩ => ⟨S8x4x1x4, .f32⟩
  | .hbm, ⟨72, _⟩ => ⟨S32x4, .f32⟩
  | .hbm, ⟨73, _⟩ => ⟨S2x1x4, .f32⟩
  | .hbm, ⟨74, _⟩ => ⟨S_, .f32⟩
  | .hbm, ⟨75, _⟩ => ⟨S1x4, .f32⟩
  | .hbm, ⟨76, _⟩ => ⟨S4, .f32⟩
  | .hbm, ⟨77, _⟩ => ⟨S_, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S5000x112, .f32⟩
  | .local _ .vmem, ⟨1, _⟩ => ⟨S5000x112, .f32⟩
  | .local _ .vmem, ⟨2, _⟩ => ⟨S112x32, .f32⟩
  | .local _ .vmem, ⟨3, _⟩ => ⟨S32x4, .f32⟩
  | .local _ .vmem, ⟨4, _⟩ => ⟨S1x1x4, .f32⟩
  | .local _ .vmem, ⟨5, _⟩ => ⟨S1x1x4, .f32⟩
  | _, _ => ⟨S2000000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_5 : Ref sig .tc := ⟨.hbm, 27, rfl⟩
abbrev main_c_6 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_v12 : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_call4_v3 : Ref sig .tc := ⟨.hbm, 38, rfl⟩
abbrev main_call4_v4 : Ref sig .tc := ⟨.hbm, 39, rfl⟩
abbrev main_v13 : Ref sig .tc := ⟨.hbm, 40, rfl⟩
abbrev main_v14 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_call5_v3 : Ref sig .tc := ⟨.hbm, 45, rfl⟩
abbrev main_call5_v4 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_7 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_call6_v0 : Ref sig .tc := ⟨.hbm, 57, rfl⟩
abbrev main_call6_v1 : Ref sig .tc := ⟨.hbm, 58, rfl⟩
abbrev main_call6_v2 : Ref sig .tc := ⟨.hbm, 59, rfl⟩
abbrev main_call6_v3 : Ref sig .tc := ⟨.hbm, 60, rfl⟩
abbrev main_call6_v4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_8 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst : Ref sig .tc := ⟨.hbm, 74, rfl⟩
abbrev main_v35 : Ref sig .tc := ⟨.hbm, 75, rfl⟩
abbrev main_v36 : Ref sig .tc := ⟨.hbm, 76, rfl⟩
abbrev main_cst_9 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_10 : Ref sig .tc := ⟨.hbm, 82, rfl⟩
abbrev main_v41 : Ref sig .tc := ⟨.hbm, 83, rfl⟩
abbrev main_cst_11 : Ref sig .tc := ⟨.hbm, 84, rfl⟩
abbrev main_v42 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S112x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2000000x14_S250000x112 : S2000000x14.ShapeCasts S250000x112
  bcast_S_S4 : S_.BroadcastsInDim S4 (![] : Fin 0 → Fin S4.rank)
  bcast_S4_S4x1_0 : S4.BroadcastsInDim S4x1 (![0] : Fin 1 → Fin S4x1.rank)
  bcast_S4x1_S4x14_0_1 : S4x1.BroadcastsInDim S4x14 (![0, 1] : Fin 2 → Fin S4x14.rank)
  bcast_S1x14_S4x14_0_1 : S1x14.BroadcastsInDim S4x14 (![0, 1] : Fin 2 → Fin S4x14.rank)
  transposes_S4x14_S14x4_1_0 : S4x14.Transposes [1, 0] S14x4
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S14x4_S1x14x1x4_1_3 : S14x4.BroadcastsInDim S1x14x1x4 (![1, 3] : Fin 2 → Fin S1x14x1x4.rank)
  bcast_S8x1x8x1_S8x14x8x4_0_1_2_3 : S8x1x8x1.BroadcastsInDim S8x14x8x4 (![0, 1, 2, 3] : Fin 4 → Fin S8x14x8x4.rank)
  bcast_S1x14x1x4_S8x14x8x4_0_1_2_3 : S1x14x1x4.BroadcastsInDim S8x14x8x4 (![0, 1, 2, 3] : Fin 4 → Fin S8x14x8x4.rank)
  shapeCasts_S8x14x8x4_S112x32 : S8x14x8x4.ShapeCasts S112x32
  bcast_S_S4x4 : S_.BroadcastsInDim S4x4 (![] : Fin 0 → Fin S4x4.rank)
  shapeCasts_S4x4_S1x4x1x4 : S4x4.ShapeCasts S1x4x1x4
  bcast_S1x4x1x4_S8x4x1x4_0_1_2_3 : S1x4x1x4.BroadcastsInDim S8x4x1x4 (![0, 1, 2, 3] : Fin 4 → Fin S8x4x1x4.rank)
  shapeCasts_S8x4x1x4_S32x4 : S8x4x1x4.ShapeCasts S32x4
  inb_S1x1x4_S1x1x4_0_0_0 : ∀ a, (![0, 0, 0] : Fin 3 → Nat) a + S1x1x4.size a ≤ S1x1x4.size a
  h_S1x1x4 : 0 < S1x1x4.numel
  inb_S5000x112_S5000x112_0_0 : ∀ a, (![0, 0] : Fin 2 → Nat) a + S5000x112.size a ≤ S5000x112.size a
  h_S5000x112 : 0 < S5000x112.numel
  shapeCasts_S5000x112_S5000x112 : S5000x112.ShapeCasts S5000x112
  inb_S112x32_S112x32_0_0 : ∀ a, (![0, 0] : Fin 2 → Nat) a + S112x32.size a ≤ S112x32.size a
  h_S112x32 : 0 < S112x32.numel
  shapeCasts_S112x32_S112x32 : S112x32.ShapeCasts S112x32
  reduces_S5000x32_S32 : S5000x32.Reduces [0] S32
  shapeCasts_S32_S1x32 : S32.ShapeCasts S1x32
  inb_S32x4_S32x4_0_0 : ∀ a, (![0, 0] : Fin 2 → Nat) a + S32x4.size a ≤ S32x4.size a
  h_S32x4 : 0 < S32x4.numel
  shapeCasts_S32x4_S32x4 : S32x4.ShapeCasts S32x4
  shapeCasts_S1x1x4_S1x1x4 : S1x1x4.ShapeCasts S1x1x4
  shapeCasts_S1x4_S1x1x4 : S1x4.ShapeCasts S1x1x4
  reducesTo_S2x1x4_S1x4_d0 : S2x1x4.ReducesTo [0] S1x4
  h_S_ : 0 < S_.numel
  shapeCasts_S1x4_S4 : S1x4.ShapeCasts S4
  reducesTo_S4_S_d0 : S4.ReducesTo [0] S_
  dot_S5000x112_S112x32_S5000x32_1_0_0_1_n_n_wf : DotDims.WF S5000x112 S112x32 S5000x32 [1] [0] [0] [1] [] []
  dot_S1x32_S32x4_S1x4_1_0_0_1_n_n_wf : DotDims.WF S1x32 S32x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x112.size a ≤ S250000x112.size a
  hwx0_0 : ∀ i : grid0.Coords, EltTy.bits .f32 = 32 ∨ (Rect.block (s := S250000x112) S5000x112.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S112x32.size a ≤ S112x32.size a
  hwx0_1 : ∀ i : grid0.Coords, EltTy.bits .f32 = 32 ∨ (Rect.block (s := S112x32) S112x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4.size a ≤ S32x4.size a
  hwx0_2 : ∀ i : grid0.Coords, EltTy.bits .f32 = 32 ∨ (Rect.block (s := S32x4) S32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4.size a ≤ S2x1x4.size a
  hwx0_3 : ∀ i : grid0.Coords, EltTy.bits .f32 = 32 ∨ (Rect.block (s := S2x1x4) S1x1x4.size (cc0_transform_3 i) (hinb0_3 i)).WholeWords (EltTy.packing .f32)

variable [Facts₀]

def dot_S5000x112_S112x32_S5000x32_1_0_0_1_n_n : DotDims S5000x112 S112x32 S5000x32 where
  lhsContracting := [1]
  rhsContracting := [0]
  lhsNonContracting := [0]
  rhsNonContracting := [1]
  lhsBatch := []
  rhsBatch := []
  wf := dot_S5000x112_S112x32_S5000x32_1_0_0_1_n_n_wf
def dot_S1x32_S32x4_S1x4_1_0_0_1_n_n : DotDims S1x32 S32x4 S1x4 where
  lhsContracting := [1]
  rhsContracting := [0]
  lhsNonContracting := [0]
  rhsNonContracting := [1]
  lhsBatch := []
  rhsBatch := []
  wf := dot_S1x32_S32x4_S1x4_1_0_0_1_n_n_wf

abbrev win0_0 : Pipeline.Window sig grid0 :=
  Pipeline.Window.ofSpec (Memref.whole main_v0) S5000x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S112x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S32x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x1x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000x14 : Shape := ⟨2, ![2000000, 14]⟩
abbrev S_ : Shape := ⟨0, ![]⟩
abbrev S4 : Shape := ⟨1, ![4]⟩
abbrev S4x1 : Shape := ⟨2, ![4, 1]⟩
abbrev S2000000x4 : Shape := ⟨2, ![2000000, 4]⟩

abbrev nBuf : Space → Nat
  | .hbm => 38
  | .vmem => 0
  | .smem => 0
  | _ => 0

abbrev bufTy : (tb : Table) → Fin (tcTables nBuf tb) → BufTy
  | .hbm, ⟨0, _⟩ => ⟨S2000000x14, .f32⟩
  | .hbm, ⟨1, _⟩ => ⟨S_, .f32⟩
  | .hbm, ⟨2, _⟩ => ⟨S4, .i32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i1⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S4, .i32⟩
  | .hbm, ⟨11, _⟩ => ⟨S4x1, .i32⟩
  | .hbm, ⟨12, _⟩ => ⟨S2000000x4, .f32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S4x1, .i32⟩
  | .hbm, ⟨21, _⟩ => ⟨S2000000x4, .f32⟩
  | .hbm, ⟨22, _⟩ => ⟨S2000000x4, .f32⟩
  | .hbm, ⟨23, _⟩ => ⟨S_, .f32⟩
  | .hbm, ⟨24, _⟩ => ⟨S2000000x4, .f32⟩
  | .hbm, ⟨25, _⟩ => ⟨S2000000x4, .f32⟩
  | .hbm, ⟨26, _⟩ => ⟨S2000000x4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S2000000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  bcast_S_S2000000x4 : S_.BroadcastsInDim S2000000x4 (![] : Fin 0 → Fin S2000000x4.rank)
  reducesTo_S2000000x4_S4_d0 : S2000000x4.ReducesTo [0] S4
  h_S_ : 0 < S_.numel
  reducesTo_S4_S_d0 : S4.ReducesTo [0] S_
  gather_S2000000x14_S4x1_S2000000x4_0_1_n_n_1_1_20000001_wf : GatherDims.WF S2000000x14 S4x1 S2000000x4 [0] [1] [] [1] [] 1 ![2000000, 1]

variable [Facts₀]

def gather_S2000000x14_S4x1_S2000000x4_0_1_n_n_1_1_20000001 : GatherDims S2000000x14 S4x1 S2000000x4 where
  offsetDims := [0]
  collapsedSliceDims := [1]
  operandBatchingDims := []
  startIndicesBatchingDims := []
  startIndexMap := [1]
  indexVectorDim := 1
  sliceSizes := ![2000000, 1]
  wf := gather_S2000000x14_S4x1_S2000000x4_0_1_n_n_1_1_20000001_wf

class Facts : Prop extends Facts₀ where

variable [Facts]
-- ==== Proof.Pieces.lean ====
/-
  What one run of the kernel's body leaves in the output's staging buffer, case by case.

  At a tile that opens a core's run (its first of 25) the body stores the zero block, reads it back and stores
  zero-block + part; at every other tile it stores (what the buffer held) + part.  Here "part" is the body's one
  arithmetic term of the three input blocks; both cases end in a single covering store of that term, whose loads
  read the whole buffers.
-/
import proofs.«423906_j23776938950698_4_alg».proof.Proof.Gen.KernelIdeal.Frame
import Idealize.ShloMosaic.Lib.Pipeline.Value
import Idealize.ShloMosaic.Lib.Tactic

noncomputable section

namespace Cert.KernelIdeal.Acc

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A tile that does not open a core's run: the buffer held xo, the body leaves (the arithmetic term over xo). -/
theorem out_B (c : Dev nD) (i : grid0.Coords) (a2 : Memref sig .tc .vmem S5000x112 .f32) (h2 : a2.IsWhole)
    (a3 : Memref sig .tc .vmem S112x32 .f32) (h3 : a3.IsWhole) (a4 : Memref sig .tc .vmem S32x4 .f32) (h4 : a4.IsWhole)
    (a5 : Memref sig .tc .vmem S1x1x4 .f32) (h5 : a5.IsWhole) (hc : ¬cond0_0 i)
    (x0 : Vec F S5000x112 .f32) (x1 : Vec F S112x32 .f32) (x2 : Vec F S32x4 .f32) (xo : Vec F S1x1x4 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread,
    View.ld_unit_zero (S := S5000x112) hz2, View.ld_unit_zero (S := S112x32) hz2, View.ld_unit_zero (S := S32x4) hz2,
    View.ld_unit_zero (S := S1x1x4) hz3]

/-- A tile that opens a core's run: the body stores the zero block, reads it back, and leaves (the arithmetic term
    over the zero block). -/
theorem out_A (c : Dev nD) (i : grid0.Coords) (a2 : Memref sig .tc .vmem S5000x112 .f32) (h2 : a2.IsWhole)
    (a3 : Memref sig .tc .vmem S112x32 .f32) (h3 : a3.IsWhole) (a4 : Memref sig .tc .vmem S32x4 .f32) (h4 : a4.IsWhole)
    (a5 : Memref sig .tc .vmem S1x1x4 .f32) (h5 : a5.IsWhole) (hc : cond0_0 i)
    (x0 : Vec F S5000x112 .f32) (x1 : Vec F S112x32 .f32) (x2 : Vec F S32x4 .f32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x4) hz3, View.readCov_unit_zero (S := S1x1x4) _ hz3]
  simp only [View.readAt_eq_ld, h2.read_unread, h3.read_unread, h4.read_unread, h5.read_unread,
    View.ld_unit_zero (S := S5000x112) hz2, View.ld_unit_zero (S := S112x32) hz2, View.ld_unit_zero (S := S32x4) hz2,
    View.ld_unit_zero (S := S1x1x4) hz3]

end Cert.KernelIdeal.Acc

end
-- ==== Proof.Spec.lean ====
/-
  The loss both programs compute, stated once over the argument arrays.

  For a table p of 2,000,000 rows of 14 class probabilities and two lists of four class indices, constraint k asks
  that class i_k be no more probable than class j_k.  A row's violation of it is the squared positive part of
  p[row, i_k] - p[row, j_k]; the constraint's total is the sum of the violations over all rows.  A class index is a
  32-bit word read as Python reads it (a negative index counts from the end: 14 is added) and then clamped into
  0..13.  From the four totals both programs go on alike: each is divided by 2,000,000 and by the temperature, the
  four quotients are added, and the sum is divided by 4.
-/
import Idealize.ShloMosaic.Lib.ValueIdx
import Idealize.ShloMosaic.PureOps.Ideal.Laws

noncomputable section

namespace Cert.Hier

open Idealize.ShloMosaic Idealize.ShloMosaic.ValueIdx
open scoped BigOperators

abbrev SPred : Shape := ⟨2, ![2000000, 14]⟩
abbrev SFour : Shape := ⟨1, ![4]⟩
abbrev SNil : Shape := ⟨0, ![]⟩

/-- A negative class index counts from the end: 14 is added to it (the sum wraps as 32-bit words do). -/
def wrap (w : BitVec 32) : BitVec 32 := Scalar.select (IntOp.cmpi .slt w 0#32) (IntOp.addi w 14#32) w

/-- The column a class index picks: the wrapped word read as a signed integer and clamped into 0..13. -/
def col (w : BitVec 32) : Fin 14 := ⟨min (wrap w).toInt.toNat 13, by omega⟩

/-- The squared positive part of a difference. -/
def sqpos (d : EReal) : EReal := max d 0 * max d 0

/-- Row `row`'s violation of "class a is no more probable than class b". -/
def viol (p : SPred.Idx → EReal) (a b : Fin 14) (row : Fin 2000000) : EReal :=
  sqpos (p (ix2 row a) - p (ix2 row b))

/-- The four constraints' totals over all rows. -/
def totals (p : SPred.Idx → EReal) (iw jw : SFour.Idx → BitVec 32) : SFour.Idx → EReal :=
  fun i => ∑ row : Fin 2000000, viol p (col (iw i)) (col (jw i)) row

/-! ### The kernel's arrangement of the same sum

The kernel reads the table as 250,000 rows of 112 numbers: row R holds table rows 8R .. 8R+7 one after another, so its
entry c' is table row 8R + c'/14, class c' % 14.  It takes 5,000 such rows at a time (a tile), 25 tiles on each of two
cores.  Against one tile it multiplies by a 112 x 32 matrix whose column n = 4g + k picks, inside folded copy g,
class i_k minus class j_k; squares the positive parts; adds the 5,000 rows; and adds the 8 copies of constraint k by
a 32 x 4 matrix of zeros and ones. -/

/-- Entry (c', n) of the selection matrix for classes a and b: inside the copy g = n / 4 only, +1 at class a and
    -1 at class b (written as the difference of two indicator entries, as the program forms it). -/
def selEntry (a b : Fin 14) (c' : Fin 112) (n : Fin 32) : EReal :=
  (if c'.val / 14 = n.val / 4 then (1 : EReal) else 0)
    * ((if a.val = c'.val % 14 then (1 : EReal) else 0) - (if b.val = c'.val % 14 then (1 : EReal) else 0))

/-- Entry (n, k) of the matrix that adds the 8 folded copies of constraint k. -/
def grpEntry (n : Fin 32) (k : Fin 4) : EReal := if n.val % 4 = k.val then (1 : EReal) else 0

/-- Table row 8 (5000 t + r) + g: folded copy g of row r of tile t. -/
def tileRow (t : Fin 50) (r : Fin 5000) (g : Fin 8) : Fin 2000000 :=
  ⟨8 * (5000 * t.val + r.val) + g.val, by have := t.isLt; have := r.isLt; have := g.isLt; omega⟩

/-- What tile t adds to the total of "class a no more probable than class b": the violations of its 40,000 table rows. -/
def tilePart (p : SPred.Idx → EReal) (a b : Fin 14) (t : Fin 50) : EReal :=
  ∑ g : Fin 8, ∑ r : Fin 5000, viol p a b (tileRow t r g)

/-- What both programs do with the four totals: the mean over the 2,000,000 rows, divided by the temperature, summed
    over the constraints, divided by 4. -/
def tail (hb : SNil.BroadcastsInDim SFour (![] : Fin 0 → Fin SFour.rank)) (hr : SFour.ReducesTo [0] SNil)
    (h0 : 0 < SNil.numel) (T : FVec Ideal SFour .f32) (temp : FVec Ideal SNil .f32) : FVec Ideal SNil .f32 :=
  Host.divf (F := Ideal)
    (Host.reduceAdd (F := Ideal)
      (Host.divf (F := Ideal)
        (Host.divf (F := Ideal) T (broadcastInDim SFour ![] hb (constant (F := Ideal) SNil .f32 0x49F42400#32)))
        (broadcastInDim SFour ![] hb temp))
      (constant (F := Ideal) SNil .f32 0x00000000#32) hr h0)
    (constant (F := Ideal) SNil .f32 0x40800000#32)

end Cert.Hier

end
-- ==== Proof.LibRows.lean ====
/-
  Operations on matrices with a free number of rows, read at one entry (p, j): a matrix product of an
  M × K by a K × N matrix is the sum over k of the products of row p with column j; a bias row spread over the
  rows reads its entry j; a row sum kept as a column and spread over the columns reads row p's sum.
-/
import Idealize.ShloMosaic.Lib.ValueIdx
import Idealize.ShloMosaic.Lib.Pipeline.Value
import Idealize.ShloMosaic.PureOps.Ideal.Laws

noncomputable section

namespace Cert.Lib.Rows

open Idealize.ShloMosaic Idealize.ShloMosaic.ValueIdx
open scoped BigOperators

variable {M K N : ℕ}

/-- The left operand's index at output (p, j) and contraction position q: row p … -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … column q. -/
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
/-- The right operand's index: row q … -/
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
/-- … column j. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, as a sum over k : Fin K of row p times column j. -/
theorem plain_sum (l : (⟨2, ![M, K]⟩ : Shape).Idx → EReal) (r : (⟨2, ![K, N]⟩ : Shape).Idx → EReal) (p : Fin M) (j : Fin N) :
    ∑ q : (DotDims.plain M K N).contr.Idx, l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A matrix unit's product into the zero accumulator, at (p, j). -/
theorem matmul_plain_apply {φ₁ φ₂ : FTy} (prec : Option ContractPrecision) (l : FVec Ideal ⟨2, ![M, K]⟩ φ₁)
    (r : FVec Ideal ⟨2, ![K, N]⟩ φ₂) (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact plain_sum l r p j

/-! ## Rows, columns and biases spread over a matrix -/

variable {α : Type} {n : ℕ}

/-- A bias vector of N entries, made a 1 × N row and spread over n rows, reads its entry j at (p, j). -/
theorem bias_apply (v : (⟨1, ![N]⟩ : Shape).Idx → α) (hc : (⟨1, ![N]⟩ : Shape).ShapeCasts ⟨2, ![1, N]⟩)
    (hb : (⟨2, ![1, N]⟩ : Shape).Broadcasts ⟨2, ![n, N]⟩) (p : Fin n) (j : Fin N) :
    broadcastTo ⟨2, ![n, N]⟩ (shapeCast ⟨2, ![1, N]⟩ v hc) hb (ix2 p j) = v (ix1 j) := by
  rw [broadcastTo_apply _ hb (ix2 p j) (ix2 (0 : Fin 1) j) (fun a => by
    match a with
    | ⟨0, _⟩ => show (0 : ℕ) = if (1 : ℕ) = 1 then 0 else _; rw [if_pos rfl]
    | ⟨1, _⟩ =>
      show j.val = if N = 1 then 0 else j.val
      split
      · have := j.isLt; omega
      · rfl)]
  exact shapeCast_apply v hc (ix2 (0 : Fin 1) j) (ix1 j) (by
    rw [Shape.rowMajor_val_one, Shape.rowMajor_val_two]
    show j.val = 0 * N + j.val
    omega)

/-- A vector of n entries kept as an n × 1 column reads entry p at (p, 0). -/
theorem column_apply (v : (⟨1, ![n]⟩ : Shape).Idx → α) (hc : (⟨1, ![n]⟩ : Shape).ShapeCasts ⟨2, ![n, 1]⟩) (p : Fin n) :
    shapeCast ⟨2, ![n, 1]⟩ v hc (ix2 p (0 : Fin 1)) = v (ix1 p) :=
  shapeCast_apply v hc (ix2 p (0 : Fin 1)) (ix1 p) (by
    rw [Shape.rowMajor_val_one, Shape.rowMajor_val_two]
    show p.val = p.val * 1 + 0
    omega)

/-- An n × 1 column spread over N columns reads row p's entry at (p, j). -/
theorem spread_column_apply (col : (⟨2, ![n, 1]⟩ : Shape).Idx → α) (hb : (⟨2, ![n, 1]⟩ : Shape).Broadcasts ⟨2, ![n, N]⟩)
    (p : Fin n) (j : Fin N) :
    broadcastTo ⟨2, ![n, N]⟩ col hb (ix2 p j) = col (ix2 p (0 : Fin 1)) :=
  broadcastTo_apply col hb (ix2 p j) (ix2 p (0 : Fin 1)) (fun a => by
    match a with
    | ⟨0, _⟩ =>
      show p.val = if n = 1 then 0 else p.val
      split
      · have := p.isLt; omega
      · rfl
    | ⟨1, _⟩ => show (0 : ℕ) = if (1 : ℕ) = 1 then 0 else _; rw [if_pos rfl])

/-- The sum of a matrix along its rows: entry p of the result is the sum over the N columns of row p. -/
theorem rowsum_apply {φ : FTy} (src : FVec Ideal ⟨2, ![n, N]⟩ φ) (acc : BitVec φ.bits)
    (h : (⟨2, ![n, N]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ k : Fin N, src (ix2 p k) := by
  rw [Ideal.multiReduction_add_single]
  refine Finset.sum_congr rfl fun k _ => congrArg src (funext fun a => Fin.ext ?_)
  match a with
  | ⟨0, _⟩ => rfl
  | ⟨1, _⟩ => rfl

end Cert.Lib.Rows

end
-- ==== Proof.Payload.lean ====
/-
  The kernel body's one arithmetic term, read at entry k of its [1,1,4] result over the extended reals.

  The term is: (what the accumulator block held) + part, where part = (column sums over the tile's 5,000 rows of the
  squared positive part of (tile x selection matrix)) x grouping matrix.  Read at k: the accumulator's entry k plus
  the sum over the 32 selection columns n of (the sum over the rows r of sqpos (the sum over the 112 folded classes
  c' of tile[r, c'] * selection[c', n])) * grouping[n, k].
-/
import proofs.«423906_j23776938950698_4_alg».proof.Proof.Gen.KernelIdeal.Skeleton
import proofs.«423906_j23776938950698_4_alg».proof.Proof.Spec
import proofs.«423906_j23776938950698_4_alg».proof.Proof.LibRows
import Idealize.ShloMosaic.Lib.Pipeline.Value
import Idealize.ShloMosaic.PureOps.Ideal.Laws

noncomputable section

namespace Cert.KernelIdeal.Acc

open Idealize.ShloMosaic Idealize.ShloMosaic.TcCoe Idealize.ShloMosaic.ValueIdx Idealize.SL.Sem
open Cert.KernelIdeal Cert.KernelIdeal.Gen Cert.Hier
open scoped BigOperators

/-- The first product's dimension numbers are the plain rows-by-columns ones. -/
theorem dot1_eq : dot_S5000x112_S112x32_S5000x32_1_0_0_1_n_n = DotDims.plain 5000 112 32 := rfl
/-- So are the second's. -/
theorem dot2_eq : dot_S1x32_S32x4_S1x4_1_0_0_1_n_n = DotDims.plain 1 32 4 := rfl

/-- A sum down the rows of an R x N matrix: entry n of the result is the sum over the R rows of column n. -/
theorem colsum_apply {R N : ℕ} {φ : FTy} (src : FVec Ideal ⟨2, ![R, N]⟩ φ) (acc : BitVec φ.bits)
    (h : (⟨2, ![R, N]⟩ : Shape).Reduces [0] ⟨1, ![N]⟩) (hφ : FKind.Formats φ) (hacc : acc = FKind.add.neutral φ hφ) (n : Fin N) :
    multiReduction .add [0] ⟨1, ![N]⟩ src acc h hφ hacc (ix1 n) = ∑ r : Fin R, src (ix2 r n) := by
  rw [Ideal.multiReduction_add_single]
  refine Finset.sum_congr rfl fun r _ => congrArg src (funext fun a => Fin.ext ?_)
  match a with
  | ⟨0, _⟩ => rfl
  | ⟨1, _⟩ => rfl

theorem pay2_apply (v3 : FVec Ideal S5000x112 .f32) (v5 : FVec Ideal S112x32 .f32) (v13 : FVec Ideal S32x4 .f32)
    (v16 : FVec Ideal S1x1x4 .f32) (k : Fin 4) :
    k0_pay2 (F := Ideal) v3 v5 v13 v16 (ix3 (0 : Fin 1) (0 : Fin 1) k)
      = v16 (ix3 (0 : Fin 1) (0 : Fin 1) k)
        + ∑ n : Fin 32, (∑ r : Fin 5000, sqpos (∑ c' : Fin 112, v3 (ix2 r c') * v5 (ix2 c' n))) * v13 (ix2 n k) := by
  unfold k0_pay2
  dsimp only
  rw [shapeCast_self, shapeCast_self, shapeCast_self, shapeCast_self]
  refine (addf_apply _ _ _).trans ?_
  congr 1
  refine (shapeCast_apply _ _ (ix3 (0 : Fin 1) (0 : Fin 1) k) (ix2 (0 : Fin 1) k) ?_).trans ?_
  · rw [Shape.rowMajor_val_two, Shape.rowMajor_val_three]
    show (0 : ℕ) * 4 + k.val = ((0 : ℕ) * 1 + 0) * 4 + k.val
    omega
  rw [dot2_eq]
  refine (Cert.Lib.Rows.matmul_plain_apply _ _ _ (0 : Fin 1) k).trans ?_
  refine Finset.sum_congr rfl fun n _ => ?_
  congr 1
  refine (shapeCast_apply _ _ (ix2 (0 : Fin 1) n) (ix1 n) ?_).trans ?_
  · rw [Shape.rowMajor_val_one, Shape.rowMajor_val_two]
    show n.val = 0 * 32 + n.val
    omega
  refine (colsum_apply _ _ _ _ _ n).trans ?_
  refine Finset.sum_congr rfl fun r _ => ?_
  rw [mulf_apply, maximumf_apply, broadcast_apply, dot1_eq]
  have e : matmul (DotDims.plain 5000 112 32) (some ContractPrecision.fp32) v3 v5 (constant S5000x32 .f32 0x00000000#32) (ix2 r n)
      = ∑ c' : Fin 112, v3 (ix2 r c') * v5 (ix2 c' n) := Cert.Lib.Rows.matmul_plain_apply _ v3 v5 r n
  rw [e, show (FloatOps.ofBits (F := Ideal) .f32 0x00000000#32 : EReal) = 0 from Ideal.ofBits_zero_f32]
  rfl

end Cert.KernelIdeal.Acc

end
-- ==== Proof.LibGcnAlgebra.lean ====
import Mathlib.Data.EReal.Basic
import Mathlib.Data.EReal.Operations
import Mathlib.Algebra.BigOperators.Ring.Finset
import Mathlib.Algebra.BigOperators.Fin
import Mathlib.Tactic.Ring

/-!
# Algebra of a two-layer graph convolution with segment pooling, on the extended reals

Over abstract finite index types.  Addition and multiplication on the extended
reals do not distribute at the infinities, so every lemma that moves a factor
through a sum assumes its numbers are real (finite).  The pooling lemmas are
pure re-indexings of sums and need no such assumption.
-/

noncomputable section

namespace Cert.Lib.GcnAlgebra

open scoped BigOperators

/-- x is a real number (neither infinity). -/
def IsReal (x : EReal) : Prop := ∃ r : ℝ, x = (r : EReal)

theorem IsReal.zero : IsReal 0 := ⟨0, EReal.coe_zero.symm⟩

theorem IsReal.one : IsReal 1 := ⟨1, EReal.coe_one.symm⟩

theorem IsReal.coe (r : ℝ) : IsReal (r : EReal) := ⟨r, rfl⟩

theorem IsReal.natCast (k : ℕ) : IsReal (k : EReal) := ⟨(k : ℝ), EReal.coe_natCast.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.sum {ι : Type} (S : Finset ι) (f : ι → EReal) (hf : ∀ i ∈ S, IsReal (f i)) :
    IsReal (∑ i ∈ S, f i) := by
  classical
  induction S using Finset.induction_on with
  | empty => simpa using IsReal.zero
  | insert a s ha ih =>
    rw [Finset.sum_insert ha]
    exact IsReal.add (hf a (Finset.mem_insert_self a s))
      (ih (fun i hi => hf i (Finset.mem_insert_of_mem hi)))

theorem IsReal.ite {p : Prop} [Decidable p] {x y : EReal} (hx : IsReal x) (hy : IsReal y) :
    IsReal (if p then x else y) := by
  split
  · exact hx
  · exact hy

/-- a finite sum of ones is a natural number -/
theorem IsReal.sum_const_one {ι : Type} (S : Finset ι) :
    (∑ _i ∈ S, (1 : EReal)) = ((S.card : ℕ) : EReal) := by
  rw [Finset.sum_const, nsmul_one]

/-! ### Real witnesses -/

/-- a sum of real numbers, each read as an extended real, is the real sum read as an extended real -/
private theorem coe_sum {ι : Type} (S : Finset ι) (g : ι → ℝ) :
    (∑ i ∈ S, ((g i : ℝ) : EReal)) = ((∑ i ∈ S, g i : ℝ) : EReal) := by
  classical
  induction S using Finset.induction_on with
  | empty => rw [Finset.sum_empty, Finset.sum_empty, EReal.coe_zero]
  | insert a s ha ih => rw [Finset.sum_insert ha, Finset.sum_insert ha, ih, EReal.coe_add]

/-- a real extended number is its own real part -/
private theorem IsReal.coe_toReal {x : EReal} (hx : IsReal x) : ((x.toReal : ℝ) : EReal) = x := by
  obtain ⟨r, rfl⟩ := hx
  rw [EReal.toReal_coe]

/-! ### Layer 1 -/

/-- LAYER 1, one node and one column: multiplying the aggregated sum by D afterwards is the sum of
the terms each multiplied by D. -/
theorem layer1_node {ε : Type} (S : Finset ε) (h de : ε → EReal) (D : EReal)
    (hh : ∀ e ∈ S, IsReal (h e)) (hde : ∀ e ∈ S, IsReal (de e)) (hD : IsReal D) :
    (0 + ∑ e ∈ S, h e * de e) * D = 0 + ∑ e ∈ S, h e * (de e * D) := by
  obtain ⟨d, rfl⟩ := hD
  -- both sums are real sums of the real parts
  have e1 : (∑ e ∈ S, h e * de e)
      = ((∑ e ∈ S, (h e).toReal * (de e).toReal : ℝ) : EReal) := by
    rw [← coe_sum]
    refine Finset.sum_congr rfl (fun e he => ?_)
    rw [EReal.coe_mul, (hh e he).coe_toReal, (hde e he).coe_toReal]
  have e2 : (∑ e ∈ S, h e * (de e * (d : EReal)))
      = ((∑ e ∈ S, (h e).toReal * ((de e).toReal * d) : ℝ) : EReal) := by
    rw [← coe_sum]
    refine Finset.sum_congr rfl (fun e he => ?_)
    rw [EReal.coe_mul, EReal.coe_mul, (hh e he).coe_toReal, (hde e he).coe_toReal]
  rw [e1, e2, zero_add, zero_add, ← EReal.coe_mul, Finset.sum_mul]
  congr 1
  exact Finset.sum_congr rfl (fun e _ => mul_assoc _ _ _)

/-! ### Pooling: re-indexing only -/

/-- a 0/1 mask times g, summed, is g summed over where the mask is set -/
theorem sum_mask_mul {ι : Type} [Fintype ι] (P : ι → Prop) [DecidablePred P] (g : ι → EReal) :
    (∑ i, (if P i then (1 : EReal) else 0) * g i) = ∑ i ∈ Finset.univ.filter P, g i := by
  rw [Finset.sum_filter]
  refine Finset.sum_congr rfl (fun i _ => ?_)
  by_cases hP : P i
  · rw [if_pos hP, if_pos hP, one_mul]
  · rw [if_neg hP, if_neg hP, zero_mul]

/-- T tiles of R consecutive rows are all T*R rows -/
theorem sum_tiles (T R : ℕ) (f : ℕ → EReal) :
    (∑ t : Fin T, ∑ r : Fin R, f (t.val * R + r.val)) = ∑ n : Fin (T * R), f n.val := by
  -- row r of tile t is row r + R * t of the whole; this pairing is a bijection
  rw [← Fintype.sum_prod_type' (fun (t : Fin T) (r : Fin R) => f (t.val * R + r.val)),
    ← Equiv.sum_comp finProdFinEquiv (fun n : Fin (T * R) => f n.val)]
  refine Fintype.sum_congr _ _ (fun p => ?_)
  rw [finProdFinEquiv_apply_val, Nat.mul_comm p.1.val R, Nat.add_comm]

/-- POOLING: an accumulator that is 0 + (tile 0's part) after point 0 and (previous) + (tile t's
part) after point t holds, after the last of T points, 0 + the sum of all parts. -/
theorem pool_fold (T : ℕ) (hT : 0 < T) (acc : ℕ → EReal) (part : ℕ → EReal)
    (h0 : acc 0 = 0 + part 0) (hs : ∀ t, 0 < t → t < T → acc t = acc (t - 1) + part t) :
    acc (T - 1) = 0 + ∑ t : Fin T, part t.val := by
  -- after point t the accumulator holds 0 + the parts of points 0..t
  have key : ∀ t, t < T → acc t = 0 + ∑ i ∈ Finset.range (t + 1), part i := by
    intro t
    induction t with
    | zero =>
      intro _
      rw [h0, Finset.sum_range_one]
    | succ n ih =>
      intro hn
      rw [hs (n + 1) (Nat.succ_pos n) hn, Nat.add_sub_cancel, ih (Nat.lt_of_succ_lt hn),
        Finset.sum_range_succ _ (n + 1), add_assoc]
  rw [key (T - 1) (Nat.sub_lt hT Nat.one_pos), Nat.sub_add_cancel hT,
    Fin.sum_univ_eq_sum_range part T]

/-! ### Layer 2 -/

/-- the layer-2 identity over the reals: distribute, and swap the sum over edges with the sum over
the contracted column index -/
private theorem layer2_real {ε κ : Type} [Fintype κ] (S : Finset ε) (x : ε → κ → ℝ) (a : ε → ℝ)
    (d : ℝ) (yr w : κ → ℝ) :
    (∑ k, ((∑ e ∈ S, x e k * a e) * d + yr k * (d * d)) * w k)
      = (∑ e ∈ S, (∑ k, x e k * w k) * (a e * d)) + (∑ k, yr k * w k) * (d * d) := by
  have h1 : ∀ k, ((∑ e ∈ S, x e k * a e) * d + yr k * (d * d)) * w k
      = (∑ e ∈ S, x e k * w k * (a e * d)) + yr k * w k * (d * d) := by
    intro k
    rw [add_mul, Finset.sum_mul, Finset.sum_mul]
    congr 1
    · exact Finset.sum_congr rfl (fun e _ => by ring)
    · ring
  have h2 : (∑ k, ∑ e ∈ S, x e k * w k * (a e * d))
      = ∑ e ∈ S, (∑ k, x e k * w k) * (a e * d) := by
    rw [Finset.sum_comm]
    exact Finset.sum_congr rfl (fun e _ => (Finset.sum_mul _ _ _).symm)
  have h3 : (∑ k, yr k * w k * (d * d)) = (∑ k, yr k * w k) * (d * d) :=
    (Finset.sum_mul _ _ _).symm
  rw [Finset.sum_congr rfl (fun k _ => h1 k), Finset.sum_add_distrib, h2, h3]

/-- LAYER 2, one node n and one output column j. X e k = x1[source e, k], de e = dinv[source e],
D = dinv[n], y k = x1[n, k], W k = W2[k, j], b = b2[j].
Left: the kernel (aggregate 16 columns, scale, then apply W). Right: the reference (apply W, then
aggregate and scale). -/
theorem layer2_node {ε κ : Type} [Fintype κ] (S : Finset ε) (X : ε → κ → EReal) (de : ε → EReal)
    (D : EReal) (y W : κ → EReal) (b : EReal)
    (hX : ∀ e ∈ S, ∀ k, IsReal (X e k)) (hde : ∀ e ∈ S, IsReal (de e)) (hD : IsReal D)
    (hy : ∀ k, IsReal (y k)) (hW : ∀ k, IsReal (W k)) :
    (∑ k, ((0 + ∑ e ∈ S, X e k * de e) * D + y k * (D * D)) * W k) + b
      = ((0 + ∑ e ∈ S, (∑ k, X e k * W k) * (de e * D)) + (∑ k, y k * W k) * (D * D)) + b := by
  obtain ⟨d, rfl⟩ := hD
  choose yr hyr using hy
  choose w hw using hW
  obtain rfl : y = fun k => ((yr k : ℝ) : EReal) := funext hyr
  obtain rfl : W = fun k => ((w k : ℝ) : EReal) := funext hw
  -- the bias b may be anything: the two sides agree before it is added
  congr 1
  -- the kernel's side is a real number
  have hL : (∑ k, ((0 + ∑ e ∈ S, X e k * de e) * (d : EReal)
        + ((yr k : ℝ) : EReal) * ((d : EReal) * (d : EReal))) * ((w k : ℝ) : EReal))
      = ((∑ k, ((∑ e ∈ S, (X e k).toReal * (de e).toReal) * d + yr k * (d * d)) * w k : ℝ)
          : EReal) := by
    rw [← coe_sum]
    refine Finset.sum_congr rfl (fun k _ => ?_)
    have hk : (∑ e ∈ S, X e k * de e)
        = ((∑ e ∈ S, (X e k).toReal * (de e).toReal : ℝ) : EReal) := by
      rw [← coe_sum]
      refine Finset.sum_congr rfl (fun e he => ?_)
      rw [EReal.coe_mul, (hX e he k).coe_toReal, (hde e he).coe_toReal]
    rw [hk, zero_add, EReal.coe_mul, EReal.coe_add, EReal.coe_mul, EReal.coe_mul, EReal.coe_mul]
  -- the reference's aggregated part is a real number
  have hR1 : (∑ e ∈ S, (∑ k, X e k * ((w k : ℝ) : EReal)) * (de e * (d : EReal)))
      = ((∑ e ∈ S, (∑ k, (X e k).toReal * w k) * ((de e).toReal * d) : ℝ) : EReal) := by
    rw [← coe_sum]
    refine Finset.sum_congr rfl (fun e he => ?_)
    have hk : (∑ k, X e k * ((w k : ℝ) : EReal))
        = ((∑ k, (X e k).toReal * w k : ℝ) : EReal) := by
      rw [← coe_sum]
      refine Finset.sum_congr rfl (fun k _ => ?_)
      rw [EReal.coe_mul, (hX e he k).coe_toReal]
    rw [hk, EReal.coe_mul, EReal.coe_mul, (hde e he).coe_toReal]
  -- the reference's self-loop part is a real number
  have hR2 : (∑ k, ((yr k : ℝ) : EReal) * ((w k : ℝ) : EReal)) * ((d : EReal) * (d : EReal))
      = (((∑ k, yr k * w k) * (d * d) : ℝ) : EReal) := by
    have hk : (∑ k, ((yr k : ℝ) : EReal) * ((w k : ℝ) : EReal))
        = ((∑ k, yr k * w k : ℝ) : EReal) := by
      rw [← coe_sum]
      exact Finset.sum_congr rfl (fun k _ => (EReal.coe_mul _ _).symm)
    rw [hk, ← EReal.coe_mul, ← EReal.coe_mul]
  rw [hL, hR1, hR2, zero_add, ← EReal.coe_add, layer2_real]

end Cert.Lib.GcnAlgebra
-- ==== Proof.Algebra.lean ====
/-
  Sums over the extended reals that join the kernel's arrangement to the plain sum over all rows.
-/
import proofs.«423906_j23776938950698_4_alg».proof.Proof.Spec
import proofs.«423906_j23776938950698_4_alg».proof.Proof.LibGcnAlgebra

noncomputable section

namespace Cert.Hier

open Cert.Lib.GcnAlgebra
open scoped BigOperators

/-- A finite sum of real numbers, each read as an extended real, is the real sum read as an extended real. -/
private theorem coe_sum_real {ι : Type} (S : Finset ι) (g : ι → ℝ) :
    (∑ i ∈ S, ((g i : ℝ) : EReal)) = ((∑ i ∈ S, g i : ℝ) : EReal) := by
  classical
  induction S using Finset.induction_on with
  | empty => rw [Finset.sum_empty, Finset.sum_empty, EReal.coe_zero]
  | insert a s ha ih => rw [Finset.sum_insert ha, Finset.sum_insert ha, ih, EReal.coe_add]

/-- A zero-or-one entry is a real number. -/
private theorem ite_one_zero_coe (P : Prop) [Decidable P] :
    (if P then (1 : EReal) else 0) = (((if P then (1 : ℝ) else 0) : ℝ) : EReal) := by
  split
  · exact EReal.coe_one.symm
  · exact EReal.coe_zero.symm

/-- One row of 112 real numbers against column n of the selection matrix: only copy n / 4 survives, and there the
    entry at class a minus the entry at class b. -/
theorem sum_selEntry (X : Fin 112 → EReal) (hX : ∀ c', IsReal (X c')) (a b : Fin 14) (n : Fin 32) :
    ∑ c' : Fin 112, X c' * selEntry a b c' n
      = X ⟨(n.val / 4) * 14 + a.val, by have := n.isLt; have := a.isLt; omega⟩
        - X ⟨(n.val / 4) * 14 + b.val, by have := n.isLt; have := b.isLt; omega⟩ := by
  choose x hx using hX
  obtain rfl : X = fun c' => ((x c' : ℝ) : EReal) := funext hx
  have hn := n.isLt
  have ha := a.isLt
  have hb := b.isLt
  -- each term is a real number: x c' where c' is the position of class a in copy n / 4, minus x c' where it is
  -- the position of class b there
  have hterm : ∀ c' : Fin 112, ((x c' : ℝ) : EReal) * selEntry a b c' n
      = (((if c'.val = (n.val / 4) * 14 + a.val then x c' else 0)
          - (if c'.val = (n.val / 4) * 14 + b.val then x c' else 0) : ℝ) : EReal) := by
    intro c'
    have hc := c'.isLt
    have hA : (c'.val = (n.val / 4) * 14 + a.val) ↔ (c'.val / 14 = n.val / 4 ∧ a.val = c'.val % 14) := by
      omega
    have hB : (c'.val = (n.val / 4) * 14 + b.val) ↔ (c'.val / 14 = n.val / 4 ∧ b.val = c'.val % 14) := by
      omega
    unfold selEntry
    rw [ite_one_zero_coe, ite_one_zero_coe, ite_one_zero_coe, ← EReal.coe_sub, ← EReal.coe_mul,
      ← EReal.coe_mul]
    congr 1
    rw [if_congr hA rfl rfl, if_congr hB rfl rfl]
    by_cases h1 : c'.val / 14 = n.val / 4 <;> by_cases h2 : a.val = c'.val % 14 <;>
      by_cases h3 : b.val = c'.val % 14 <;> simp [h1, h2, h3]
  rw [Finset.sum_congr rfl (fun c' _ => hterm c'), coe_sum_real, Finset.sum_sub_distrib,
    EReal.coe_sub]
  congr 1
  · congr 1
    rw [Finset.sum_eq_single (⟨(n.val / 4) * 14 + a.val, by omega⟩ : Fin 112)]
    · rw [if_pos rfl]
    · intro c' _ hne
      rw [if_neg (fun h => hne (Fin.ext h))]
    · intro h
      exact absurd (Finset.mem_univ _) h
  · congr 1
    rw [Finset.sum_eq_single (⟨(n.val / 4) * 14 + b.val, by omega⟩ : Fin 112)]
    · rw [if_pos rfl]
    · intro c' _ hne
      rw [if_neg (fun h => hne (Fin.ext h))]
    · intro h
      exact absurd (Finset.mem_univ _) h

/-- Thirty-two numbers against column k of the grouping matrix: the eight of them that belong to constraint k. -/
theorem sum_grpEntry (Q : Fin 32 → EReal) (k : Fin 4) :
    ∑ n : Fin 32, Q n * grpEntry n k
      = ∑ g : Fin 8, Q ⟨g.val * 4 + k.val, by have := g.isLt; have := k.isLt; omega⟩ := by
  have hk := k.isLt
  -- an entry of the matrix keeps the number or drops it
  have hterm : ∀ n : Fin 32, Q n * grpEntry n k = if n.val % 4 = k.val then Q n else 0 := by
    intro n
    unfold grpEntry
    split
    · rw [mul_one]
    · rw [mul_zero]
  rw [Finset.sum_congr rfl (fun n _ => hterm n)]
  -- position n is member n % 4 of group n / 4
  rw [← Equiv.sum_comp (finProdFinEquiv : Fin 8 × Fin 4 ≃ Fin (8 * 4))
      (fun n : Fin 32 => if n.val % 4 = k.val then Q n else 0),
    Fintype.sum_prod_type]
  refine Finset.sum_congr rfl (fun g _ => ?_)
  have hg := g.isLt
  rw [Finset.sum_eq_single k]
  · have hv : (finProdFinEquiv (g, k) : Fin (8 * 4)).val % 4 = k.val := by
      rw [finProdFinEquiv_apply_val]
      show (k.val + 4 * g.val) % 4 = k.val
      omega
    rw [if_pos hv]
    congr 1
    apply Fin.ext
    rw [finProdFinEquiv_apply_val]
    show k.val + 4 * g.val = g.val * 4 + k.val
    omega
  · intro k' _ hne
    have hk' := k'.isLt
    have hv : ¬ (finProdFinEquiv (g, k') : Fin (8 * 4)).val % 4 = k.val := by
      rw [finProdFinEquiv_apply_val]
      show ¬ (k'.val + 4 * g.val) % 4 = k.val
      intro h
      apply hne
      apply Fin.ext
      omega
    rw [if_neg hv]
  · intro h
    exact absurd (Finset.mem_univ _) h

/-- Two cores of 25 tiles of 8 copies of 5,000 rows are all 2,000,000 rows, each once. -/
theorem sum_all_rows (f : Fin 2000000 → EReal) :
    ∑ core : Fin 2, ∑ s : Fin 25, ∑ g : Fin 8, ∑ r : Fin 5000,
        f (tileRow ⟨core.val * 25 + s.val, by have := core.isLt; have := s.isLt; omega⟩ r g)
      = ∑ row : Fin 2000000, f row := by
  -- f read at a natural number (zero past the last row)
  let F : ℕ → EReal := fun m => if h : m < 2000000 then f ⟨m, h⟩ else 0
  have hF : ∀ (t : Fin 50) (r : Fin 5000) (g : Fin 8),
      f (tileRow t r g) = F ((t.val * 5000 + r.val) * 8 + g.val) := by
    intro t r g
    have ht := t.isLt
    have hr := r.isLt
    have hg := g.isLt
    have hlt : (t.val * 5000 + r.val) * 8 + g.val < 2000000 := by omega
    show _ = dite _ _ _
    rw [dif_pos hlt]
    congr 1
    apply Fin.ext
    show 8 * (5000 * t.val + r.val) + g.val = (t.val * 5000 + r.val) * 8 + g.val
    omega
  -- the two cores' tiles are the 50 tiles
  have h1 : (∑ core : Fin 2, ∑ s : Fin 25, ∑ g : Fin 8, ∑ r : Fin 5000,
        f (tileRow ⟨core.val * 25 + s.val, by have := core.isLt; have := s.isLt; omega⟩ r g))
      = ∑ core : Fin 2, ∑ s : Fin 25,
          (fun t : ℕ => ∑ r : Fin 5000, ∑ g : Fin 8, F ((t * 5000 + r.val) * 8 + g.val))
            (core.val * 25 + s.val) := by
    refine Finset.sum_congr rfl (fun core _ => Finset.sum_congr rfl (fun s _ => ?_))
    rw [Finset.sum_comm]
    exact Finset.sum_congr rfl (fun r _ => Finset.sum_congr rfl (fun g _ => hF _ r g))
  -- a tile's rows of 112, tile after tile, are the 250,000 rows of 112
  have h2 : (∑ t : Fin (2 * 25), ∑ r : Fin 5000, ∑ g : Fin 8, F ((t.val * 5000 + r.val) * 8 + g.val))
      = ∑ t : Fin 50, ∑ r : Fin 5000,
          (fun m : ℕ => ∑ g : Fin 8, F (m * 8 + g.val)) (t.val * 5000 + r.val) := rfl
  -- the 8 table rows in a row of 112, row after row, are the 2,000,000 table rows
  have h3 : (∑ m : Fin (50 * 5000), ∑ g : Fin 8, F (m.val * 8 + g.val))
      = ∑ m : Fin 250000, ∑ g : Fin 8, F (m.val * 8 + g.val) := rfl
  have h4 : (∑ m : Fin (250000 * 8), F m.val) = ∑ row : Fin 2000000, f row := by
    refine Finset.sum_congr rfl (fun row _ => ?_)
    show dite _ _ _ = _
    rw [dif_pos row.isLt]
  have e1 := sum_tiles 2 25
    (fun t : ℕ => ∑ r : Fin 5000, ∑ g : Fin 8, F ((t * 5000 + r.val) * 8 + g.val))
  have e2 := sum_tiles 50 5000 (fun m : ℕ => ∑ g : Fin 8, F (m * 8 + g.val))
  have e3 := sum_tiles 250000 8 F
  exact h1.trans (e1.trans (h2.trans (e2.trans (h3.trans (e3.trans h4)))))

end Cert.Hier

end
-- ==== Proof.TilePart.lean ====
/-
  What one tile adds to the four totals.

  At grid point t the kernel's first window holds rows 5000 t .. 5000 t + 4999 of the folded table, the second the whole
  selection matrix and the third the whole grouping matrix.  With the three arrays read as the host operations before
  the region leave them (taken here as hypotheses about the region-entry arrays), the body's arithmetic term at entry k is
  (what the accumulator held at k) + the violations of constraint k by the tile's 40,000 table rows: a row of the
  folded table against a selection column keeps class i_k minus class j_k of one folded copy (the table being real),
  and the grouping column adds the eight copies.
-/
import proofs.«423906_j23776938950698_4_alg».proof.Proof.Gen.KernelIdeal.Frame
import proofs.«423906_j23776938950698_4_alg».proof.Proof.Payload
import proofs.«423906_j23776938950698_4_alg».proof.Proof.Algebra
import Idealize.ShloMosaic.Lib.Pipeline.Value

noncomputable section

namespace Cert.KernelIdeal.Acc

open Idealize.ShloMosaic Idealize.ShloMosaic.TcCoe Idealize.ShloMosaic.ValueIdx Idealize.SL.Sem
open Cert.KernelIdeal Cert.KernelIdeal.Gen Cert.Hier Cert.Lib.GcnAlgebra
open scoped BigOperators

variable (m : (ℓ : Loc nD τ sig) → Buf (Elt Ideal) ℓ)

/-- The table, and the two lists of class-index words, as the program is launched with them. -/
abbrev tbl (c : Dev nD) : SPred.Idx → EReal := m ((c : Thread nD τ).loc main_arg0)
abbrev iws (c : Dev nD) : SFour.Idx → BitVec 32 := m ((c : Thread nD τ).loc main_arg2)
abbrev jws (c : Dev nD) : SFour.Idx → BitVec 32 := m ((c : Thread nD τ).loc main_arg3)

/-- The three window blocks at a grid point, at their literal types. -/
abbrev xblk (c : Dev nD) (t : Fin cfg0.N) : FVec Ideal S5000x112 .f32 := iblk m c 0 t
abbrev sblk (c : Dev nD) (t : Fin cfg0.N) : FVec Ideal S112x32 .f32 := iblk m c 1 t
abbrev gblk (c : Dev nD) (t : Fin cfg0.N) : FVec Ideal S32x4 .f32 := iblk m c 2 t

/-- Where the windows' blocks sit: the first window's block index is the grid point itself (core * 25 + step), column
    block 0; the other two windows never move. -/
theorem idx_facts : ∀ t : Fin cfg0.N, win0_0.index t 0 = t.val ∧ win0_0.index t 1 = 0
    ∧ win0_1.index t 0 = 0 ∧ win0_1.index t 1 = 0 ∧ win0_2.index t 0 = 0 ∧ win0_2.index t 1 = 0 :=
  (by decide +kernel : ∀ t : Fin grid0.N, win0_0.index t 0 = t.val ∧ win0_0.index t 1 = 0
    ∧ win0_1.index t 0 = 0 ∧ win0_1.index t 1 = 0 ∧ win0_2.index t 0 = 0 ∧ win0_2.index t 1 = 0)

/-- Row r of tile t is row 5000 t + r of the folded table. -/
theorem xblk_apply (c : Dev nD) (t : Fin cfg0.N) (r : Fin 5000) (c' : Fin 112) :
    xblk m c t (ix2 r c')
      = (V m c main_v0 : S250000x112.Idx → EReal)
          (ix2 (⟨5000 * t.val + r.val, by have := t.isLt; have : cfg0.N = 50 := N_0; have := r.isLt; omega⟩ : Fin 250000) c') := by
  have hi := idx_facts t
  unfold xblk iblk
  rw [View.read_apply]
  show V m c main_v0 _ = V m c main_v0 _
  congr 1
  funext a
  apply Fin.ext
  match a with
  | ⟨0, _⟩ => show win0_0.index t 0 * 5000 + 1 * r.val = 5000 * t.val + r.val; rw [hi.1]; omega
  | ⟨1, _⟩ => show win0_0.index t 1 * 112 + 1 * c'.val = c'.val; rw [hi.2.1]; omega

/-- The second window's block is the whole selection matrix. -/
theorem sblk_apply (c : Dev nD) (t : Fin cfg0.N) (c' : Fin 112) (n : Fin 32) :
    sblk m c t (ix2 c' n) = (V m c main_v24 : S112x32.Idx → EReal) (ix2 c' n) := by
  have hi := idx_facts t
  unfold sblk iblk
  rw [View.read_apply]
  show V m c main_v24 _ = V m c main_v24 _
  congr 1
  funext a
  apply Fin.ext
  match a with
  | ⟨0, _⟩ => show win0_1.index t 0 * 112 + 1 * c'.val = c'.val; rw [hi.2.2.1]; omega
  | ⟨1, _⟩ => show win0_1.index t 1 * 32 + 1 * n.val = n.val; rw [hi.2.2.2.1]; omega

/-- The third window's block is the whole grouping matrix. -/
theorem gblk_apply (c : Dev nD) (t : Fin cfg0.N) (n : Fin 32) (k : Fin 4) :
    gblk m c t (ix2 n k) = (V m c main_v33 : S32x4.Idx → EReal) (ix2 n k) := by
  have hi := idx_facts t
  unfold gblk iblk
  rw [View.read_apply]
  show V m c main_v33 _ = V m c main_v33 _
  congr 1
  funext a
  apply Fin.ext
  match a with
  | ⟨0, _⟩ => show win0_2.index t 0 * 32 + 1 * n.val = n.val; rw [hi.2.2.2.2.1]; omega
  | ⟨1, _⟩ => show win0_2.index t 1 * 4 + 1 * k.val = k.val; rw [hi.2.2.2.2.2]; omega

/-- The three arrays the region reads, as the host operations before it leave them on core c. -/
structure PrefixFacts (c : Dev nD) : Prop where
  folded : ∀ (R : Fin 250000) (c' : Fin 112), (V m c main_v0 : S250000x112.Idx → EReal) (ix2 R c')
    = tbl m c (ix2 (⟨8 * R.val + c'.val / 14, by have := R.isLt; have := c'.isLt; omega⟩ : Fin 2000000)
        (⟨c'.val % 14, Nat.mod_lt _ (by decide)⟩ : Fin 14))
  selection : ∀ (c' : Fin 112) (n : Fin 32), (V m c main_v24 : S112x32.Idx → EReal) (ix2 c' n)
    = selEntry (col (iws m c (ix1 (⟨n.val % 4, Nat.mod_lt _ (by decide)⟩ : Fin 4))))
        (col (jws m c (ix1 (⟨n.val % 4, Nat.mod_lt _ (by decide)⟩ : Fin 4)))) c' n
  grouping : ∀ (n : Fin 32) (k : Fin 4), (V m c main_v33 : S32x4.Idx → EReal) (ix2 n k) = grpEntry n k

/-- The grid point as a tile number. -/
abbrev tileOf (t : Fin cfg0.N) : Fin 50 := ⟨t.val, lt_of_lt_of_eq t.isLt N_0⟩

/-- THE TILE'S PART: at grid point t, over an accumulator block acc, the body's term at entry k is acc's entry k plus the
    violations of constraint k by tile t's rows. -/
theorem part_apply (c : Dev nD) (hP : PrefixFacts m c) (hreal : ∀ i, IsReal (tbl m c i)) (t : Fin cfg0.N)
    (acc : FVec Ideal S1x1x4 .f32) (k : Fin 4) :
    k0_pay2 (F := Ideal) (xblk m c t) (sblk m c t) (gblk m c t) acc (ix3 (0 : Fin 1) (0 : Fin 1) k)
      = acc (ix3 (0 : Fin 1) (0 : Fin 1) k)
        + tilePart (tbl m c) (col (iws m c (ix1 k))) (col (jws m c (ix1 k))) (tileOf t) := by
  refine (pay2_apply (xblk m c t) (sblk m c t) (gblk m c t) acc k).trans ?_
  refine congrArg (fun z : EReal => acc (ix3 (0 : Fin 1) (0 : Fin 1) k) + z) ?_
  -- the 32 selection columns, each against the grouping column k
  have hN : cfg0.N = 50 := N_0
  have ht := t.isLt
  have hcol : ∀ n : Fin 32, (∑ r : Fin 5000, sqpos (∑ c' : Fin 112, xblk m c t (ix2 r c') * sblk m c t (ix2 c' n)))
      = ∑ r : Fin 5000, viol (tbl m c) (col (iws m c (ix1 (⟨n.val % 4, Nat.mod_lt _ (by decide)⟩ : Fin 4))))
          (col (jws m c (ix1 (⟨n.val % 4, Nat.mod_lt _ (by decide)⟩ : Fin 4))))
          (tileRow (tileOf t) r (⟨n.val / 4, by have := n.isLt; omega⟩ : Fin 8)) := by
    intro n
    refine Finset.sum_congr rfl fun r _ => ?_
    have hr := r.isLt
    have hn := n.isLt
    -- row r of the tile, as a row of 112 real numbers
    have hrow : ∀ c' : Fin 112, xblk m c t (ix2 r c') * sblk m c t (ix2 c' n)
        = (fun c'' : Fin 112 => tbl m c (ix2 (⟨8 * (5000 * t.val + r.val) + c''.val / 14, by have := c''.isLt; omega⟩ : Fin 2000000)
            (⟨c''.val % 14, Nat.mod_lt _ (by decide)⟩ : Fin 14))) c'
          * selEntry (col (iws m c (ix1 (⟨n.val % 4, Nat.mod_lt _ (by decide)⟩ : Fin 4))))
              (col (jws m c (ix1 (⟨n.val % 4, Nat.mod_lt _ (by decide)⟩ : Fin 4)))) c' n := by
      intro c'
      rw [xblk_apply, sblk_apply, hP.folded, hP.selection]
    rw [Finset.sum_congr rfl fun c' _ => hrow c', sum_selEntry _ (fun c' => hreal _)]
    generalize col (iws m c (ix1 (⟨n.val % 4, Nat.mod_lt _ (by decide)⟩ : Fin 4))) = a
    generalize col (jws m c (ix1 (⟨n.val % 4, Nat.mod_lt _ (by decide)⟩ : Fin 4))) = b
    have ha := a.isLt
    have hb := b.isLt
    unfold viol
    refine congrArg sqpos ?_
    refine congrArg₂ (fun u v : EReal => u - v) (congrArg (tbl m c) ?_) (congrArg (tbl m c) ?_)
    · refine funext fun x => Fin.ext ?_
      match x with
      | ⟨0, _⟩ =>
        show 8 * (5000 * t.val + r.val) + (n.val / 4 * 14 + a.val) / 14 = 8 * (5000 * t.val + r.val) + n.val / 4
        omega
      | ⟨1, _⟩ =>
        show (n.val / 4 * 14 + a.val) % 14 = a.val
        omega
    · refine funext fun x => Fin.ext ?_
      match x with
      | ⟨0, _⟩ =>
        show 8 * (5000 * t.val + r.val) + (n.val / 4 * 14 + b.val) / 14 = 8 * (5000 * t.val + r.val) + n.val / 4
        omega
      | ⟨1, _⟩ =>
        show (n.val / 4 * 14 + b.val) % 14 = b.val
        omega
  have hterm : ∀ n : Fin 32, (∑ r : Fin 5000, sqpos (∑ c' : Fin 112, xblk m c t (ix2 r c') * sblk m c t (ix2 c' n))) * gblk m c t (ix2 n k)
      = (fun n' : Fin 32 => ∑ r : Fin 5000, viol (tbl m c) (col (iws m c (ix1 (⟨n'.val % 4, Nat.mod_lt _ (by decide)⟩ : Fin 4))))
          (col (jws m c (ix1 (⟨n'.val % 4, Nat.mod_lt _ (by decide)⟩ : Fin 4))))
          (tileRow (tileOf t) r (⟨n'.val / 4, by have := n'.isLt; omega⟩ : Fin 8))) n * grpEntry n k := by
    intro n
    rw [hcol n, gblk_apply, hP.grouping]
  rw [Finset.sum_congr rfl fun n _ => hterm n, sum_grpEntry]
  unfold tilePart
  refine Finset.sum_congr rfl fun g _ => ?_
  have hg := g.isLt
  have hk := k.isLt
  have e4 : (⟨(g.val * 4 + k.val) % 4, Nat.mod_lt _ (by decide)⟩ : Fin 4) = k := Fin.ext (by show (g.val * 4 + k.val) % 4 = k.val; omega)
  have e8 : (⟨(g.val * 4 + k.val) / 4, by omega⟩ : Fin 8) = g := Fin.ext (by show (g.val * 4 + k.val) / 4 = g.val; omega)
  dsimp only
  rw [e4, e8]

end Cert.KernelIdeal.Acc

end
-- ==== Proof.Accum.lean ====
/-
  The kernel's result array: entry (core, 0, k) ends holding the violations of constraint k by all the table rows of
  that core's 25 tiles.

  The output block of a core stays in its staging buffer for the core's 25 grid points: the first of them leaves
  zero + that tile's part, each later one (what the point before left) + its tile's part (by induction on the point,
  never by walking the grid), and the block is written back after the 25th.  The two write-backs cover the array.
-/
import proofs.«423906_j23776938950698_4_alg».proof.Proof.Pieces
import proofs.«423906_j23776938950698_4_alg».proof.Proof.TilePart
import Idealize.ShloMosaic.Lib.Pipeline.Value

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.Hier Cert.Lib.GcnAlgebra
open scoped BigOperators

variable (m : (ℓ : Loc nD τ sig) → Buf (Elt Ideal) ℓ)

/-- Tile j's part of constraint k's total, for a tile number given as a natural number (zero past the last tile). -/
def partAt (c : Dev nD) (k : Fin 4) (j : ℕ) : EReal :=
  if h : j < 50 then tilePart (tbl m c) (col (iws m c (ix1 k))) (col (jws m c (ix1 k))) ⟨j, h⟩ else 0

theorem partAt_tileOf (c : Dev nD) (k : Fin 4) (t : Fin cfg0.N) :
    tilePart (tbl m c) (col (iws m c (ix1 k))) (col (jws m c (ix1 k))) (tileOf t) = partAt m c k t.val := by
  unfold partAt
  rw [dif_pos (lt_of_lt_of_eq t.isLt N_0)]

/-- The zero block the first point of a core's run stores. -/
theorem pay1_apply (i : S1x1x4.Idx) : k0_pay1 (F := Ideal) i = 0 := by
  unfold k0_pay1
  exact Ideal.ofBits_zero_f32

/-- A point that opens a core's run leaves the body's term over the zero block. -/
theorem outsAt_A (c : Dev nD) (t : Fin cfg0.N) (h0 : t.val % 25 = 0) :
    outsAt0 m c t.val t.isLt = k0_pay2 (F := Ideal) (xblk m c t) (sblk m c t) (gblk m c t) (k0_pay1 (F := Ideal)) :=
  (outsAt0_A m c t h0).trans
    (out_A (F := Ideal) c (grid0.coords t) (ms0_0 t) (hs0_0 t) (ms0_1 t) (hs0_1 t) (ms0_2 t) (hs0_2 t) (ms0_3 t) (hs0_3 t)
      ((hcond0_0 t).mpr h0) (xblk m c t) (sblk m c t) (gblk m c t))

/-- Any other point leaves the body's term over what the point before left. -/
theorem outsAt_B (c : Dev nD) (t : Fin cfg0.N) (h0 : ¬t.val % 25 = 0) :
    outsAt0 m c t.val t.isLt = k0_pay2 (F := Ideal) (xblk m c t) (sblk m c t) (gblk m c t)
      (outsAt0 m c (t.val - 1) (Nat.lt_of_le_of_lt (Nat.sub_le _ _) t.isLt)) :=
  (outsAt0_B m c t h0).trans
    (out_B (F := Ideal) c (grid0.coords t) (ms0_0 t) (hs0_0 t) (ms0_1 t) (hs0_1 t) (ms0_2 t) (hs0_2 t) (ms0_3 t) (hs0_3 t)
      (fun h => h0 ((hcond0_0 t).mp h)) (xblk m c t) (sblk m c t) (gblk m c t)
      (outsAt0 m c (t.val - 1) (Nat.lt_of_le_of_lt (Nat.sub_le _ _) t.isLt)))

/-- Entry k after a point that opens a run: that tile's part. -/
theorem step_A (c : Dev nD) (hP : PrefixFacts m c) (hreal : ∀ i, IsReal (tbl m c i)) (t : Fin cfg0.N) (h0 : t.val % 25 = 0)
    (k : Fin 4) : outsAt0 m c t.val t.isLt (ix3 (0 : Fin 1) (0 : Fin 1) k) = partAt m c k t.val := by
  rw [outsAt_A m c t h0, part_apply m c hP hreal t (k0_pay1 (F := Ideal)) k, pay1_apply, zero_add, partAt_tileOf]

/-- Entry k after any other point: what the point before left there, plus this tile's part. -/
theorem step_B (c : Dev nD) (hP : PrefixFacts m c) (hreal : ∀ i, IsReal (tbl m c i)) (t : Fin cfg0.N) (h0 : ¬t.val % 25 = 0)
    (k : Fin 4) : outsAt0 m c t.val t.isLt (ix3 (0 : Fin 1) (0 : Fin 1) k)
      = outsAt0 m c (t.val - 1) (Nat.lt_of_le_of_lt (Nat.sub_le _ _) t.isLt) (ix3 (0 : Fin 1) (0 : Fin 1) k) + partAt m c k t.val := by
  rw [outsAt_B m c t h0, part_apply m c hP hreal t _ k, partAt_tileOf]

/-- THE RUNNING SUM: after point n (step n % 25 of core n / 25) entry k holds the parts of the core's tiles so far. -/
theorem outsAt_sum (c : Dev nD) (hP : PrefixFacts m c) (hreal : ∀ i, IsReal (tbl m c i)) (k : Fin 4) :
    ∀ (n : ℕ) (hn : n < cfg0.N), outsAt0 m c n hn (ix3 (0 : Fin 1) (0 : Fin 1) k)
      = ∑ s ∈ Finset.range (n % 25 + 1), partAt m c k (n / 25 * 25 + s) := by
  intro n
  induction n with
  | zero =>
    intro hn
    rw [show (0 : ℕ) % 25 + 1 = 1 from rfl, Finset.sum_range_one]
    exact step_A m c hP hreal ⟨0, hn⟩ rfl k
  | succ n ih =>
    intro hn
    by_cases h0 : (n + 1) % 25 = 0
    · rw [h0, Finset.sum_range_one, show (n + 1) / 25 * 25 + 0 = n + 1 from by omega]
      exact step_A m c hP hreal ⟨n + 1, hn⟩ h0 k
    · refine (step_B m c hP hreal ⟨n + 1, hn⟩ h0 k).trans ?_
      show outsAt0 m c n (Nat.lt_of_succ_lt hn) (ix3 (0 : Fin 1) (0 : Fin 1) k) + partAt m c k (n + 1) = _
      rw [ih (Nat.lt_of_succ_lt hn), show n / 25 = (n + 1) / 25 from by omega, show n % 25 + 1 = (n + 1) % 25 from by omega,
        Finset.sum_range_succ, show (n + 1) / 25 * 25 + (n + 1) % 25 = n + 1 from by omega]

/-- A core's total of constraint k: the parts of its 25 tiles. -/
def coreTotal (c : Dev nD) (core : ℕ) (k : Fin 4) : EReal := ∑ s ∈ Finset.range 25, partAt m c k (core * 25 + s)

/-- What the result array ends holding. -/
def result (c : Dev nD) : Buf (Elt Ideal) ((c : Thread nD τ).loc main_v34) :=
  fun i => coreTotal m c (i 0).val ⟨(i 2).val, (i 2).isLt⟩

/-- Where the output window's block sits: block (core, 0, 0), the core being point / 25. -/
theorem oidx_facts : ∀ t : Fin cfg0.N, win0_3.index t 0 = t.val / 25 ∧ win0_3.index t 1 = 0 ∧ win0_3.index t 2 = 0 :=
  (by decide +kernel : ∀ t : Fin grid0.N, win0_3.index t 0 = t.val / 25 ∧ win0_3.index t 1 = 0 ∧ win0_3.index t 2 = 0)

/-- A write-back (after a core's 25th point) writes that core's block of the result. -/
theorem flushed_eq (c : Dev nD) (hP : PrefixFacts m c) (hreal : ∀ i, IsReal (tbl m c i)) (t : Fin cfg0.N)
    (hf : (cfg0.win 3).flush t = true) :
    (dats m 0 c).flushed 3 t = ((cfg0.win 3).blk t).view.read (Elt Ideal) (result m c) := by
  have h24 : t.val % 25 = 24 := (flush0_3 t).mp hf
  have hi := oidx_facts t
  show (cfg0.win 3).cut (grid0.coords t) ((dats m 0 c).after 3 t) = _
  rw [after0_3]
  funext y
  have hy0 : (y 0).val < 1 := (y 0).isLt
  have hy1 : (y 1).val < 1 := (y 1).isLt
  have hy2 : (y 2).val < 4 := (y 2).isLt
  show outsAt0 m c t.val t.isLt ((cfg0.win 3).xinj (grid0.coords t) y) = result m c (((cfg0.win 3).blk t).view.emb y)
  have eL : (cfg0.win 3).xinj (grid0.coords t) y = ix3 (0 : Fin 1) (0 : Fin 1) (⟨(y 2).val, hy2⟩ : Fin 4) := by
    funext a
    apply Fin.ext
    match a with
    | ⟨0, _⟩ => show (y 0).val = 0; omega
    | ⟨1, _⟩ => show (y 1).val = 0; omega
    | ⟨2, _⟩ => rfl
  rw [eL, outsAt_sum m c hP hreal _ t.val t.isLt, h24]
  have e0 : ((((cfg0.win 3).blk t).view.emb y) 0).val = t.val / 25 := by
    show win0_3.index t 0 * 1 + 1 * (y 0).val = t.val / 25
    rw [hi.1]; omega
  have e2 : ((((cfg0.win 3).blk t).view.emb y) 2).val = (y 2).val := by
    show win0_3.index t 2 * 4 + 1 * (y 2).val = (y 2).val
    rw [hi.2.2]; omega
  unfold result coreTotal
  refine Finset.sum_congr rfl fun s _ => ?_
  rw [e0]
  congr 1
  exact Fin.ext e2.symm

/-- The two write-backs (after points 24 and 49) cover the [2,1,4] array: entry (core, 0, k) is in core's block. -/
theorem covered (i : S2x1x4.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 4 := (i 2).isLt
  have hN : cfg0.N = 50 := N_0
  let t : Fin cfg0.N := ⟨(i 0).val * 25 + 24, by omega⟩
  have hi := oidx_facts t
  have ht : t.val = (i 0).val * 25 + 24 := rfl
  refine ⟨t, (flush0_3 t).mpr (by omega), ?_⟩
  show i ∈ ((View.whole main_v34).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [hi.1]; omega
  | ⟨1, _⟩ =>
    show win0_3.index t 1 * 1 ≤ (i 1).val ∧ (i 1).val < win0_3.index t 1 * 1 + 1
    rw [hi.2.1]; omega
  | ⟨2, _⟩ =>
    show win0_3.index t 2 * 4 ≤ (i 2).val ∧ (i 2).val < win0_3.index t 2 * 4 + 4
    rw [hi.2.2]; omega

/-- So the result array ends holding each core's totals. -/
theorem final_o (c : Dev nD) (hP : PrefixFacts m c) (hreal : ∀ i, IsReal (tbl m c i)) :
    (dats m 0 c).arrAt 3 cfg0.N = result m c :=
  (dats m 0 c).arrAt_eq_of_cover 3 (result m c) (flushed_eq m c hP hreal) covered

end Cert.KernelIdeal.Acc

end
-- ==== Proof.PrefixFolded.lean ====
/-
  The folded table the kernel's first window reads: the host reshapes the 2,000,000 x 14 table into 250,000 rows of
  112, row-major, so entry (R, c') is table row 8R + c'/14, class c' % 14.
-/
import proofs.«423906_j23776938950698_4_alg».proof.Proof.Gen.KernelIdeal.Frame.Runs
import proofs.«423906_j23776938950698_4_alg».proof.Proof.Spec
import Idealize.ShloMosaic.Lib.Pipeline.Value
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.Hier
open scoped BigOperators

variable (m : (ℓ : Loc nD τ sig) → Buf (Elt Ideal) ℓ)

/-- The folded table is the row-major recast of the table. -/
theorem folded_eq (c : Dev nD) :
    (V m c main_v0 : S250000x112.Idx → EReal)
      = shapeCast S250000x112 (m ((c : Thread nD τ).loc main_arg0) : S2000000x14.Idx → EReal)
          shapeCasts_S2000000x14_S250000x112 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results; rfl

/-- The folded table at (R, c') is the table at row 8R + c'/14, class c' % 14. -/
theorem folded_apply (c : Dev nD) (R : Fin 250000) (c' : Fin 112) :
    (V m c main_v0 : S250000x112.Idx → EReal) (ix2 R c')
      = m ((c : Thread nD τ).loc main_arg0)
          (ix2 (⟨8 * R.val + c'.val / 14, by have := R.isLt; have := c'.isLt; omega⟩ : Fin 2000000)
               (⟨c'.val % 14, Nat.mod_lt _ (by decide)⟩ : Fin 14)) := by
  rw [folded_eq]
  refine shapeCast_apply (s := S2000000x14) (t := S250000x112) _ _ _ _ ?_
  rw [Shape.rowMajor_val_two, Shape.rowMajor_val_two]
  show (8 * R.val + c'.val / 14) * 14 + c'.val % 14 = R.val * 112 + c'.val
  omega

end Cert.KernelIdeal.Prefix

end
-- ==== Proof.PrefixSelection.lean ====
/-
  The selection matrix the kernel's second window reads: the host wraps and clips the class indices, makes their
  one-hot rows, subtracts them, and takes the Kronecker product with the 8 x 8 identity; entry (c', n) is the
  specification's selEntry for the classes the two index words of constraint n % 4 pick.
-/
import proofs.«423906_j23776938950698_4_alg».proof.Proof.Gen.KernelIdeal.Frame.Runs
import proofs.«423906_j23776938950698_4_alg».proof.Proof.Spec
import Idealize.ShloMosaic.Lib.Pipeline.Value
import Idealize.ShloMosaic.Lib.StableHlo.Run
import Idealize.ShloMosaic.Lib.StableHlo.Predicate

noncomputable section

namespace Cert.KernelIdeal.Prefix

open Idealize.ShloMosaic Idealize.ShloMosaic.TcCoe Idealize.ShloMosaic.ValueIdx Idealize.SL.Sem
open Cert.KernelIdeal Cert.KernelIdeal.Gen Cert.Hier
open scoped BigOperators

variable (m : (ℓ : Loc nD τ sig) → Buf (Elt Ideal) ℓ)

namespace Selection

/-! ### The host's stages, as functions of their operands -/

/-- The class indices wrapped and clipped, as the host forms them over the four constraints. -/
def clipV (a : S4.Idx → BitVec 32) : S4.Idx → BitVec 32 :=
  minsi (broadcastInDim S4 ![] bcast_S_S4 (constantI S_ 32 13#32))
    (maxsi (broadcastInDim S4 ![] bcast_S_S4 (constantI S_ 32 0#32))
      (select (cmpi .slt a (broadcastInDim S4 ![] bcast_S_S4 (constantI S_ 32 0#32)))
        (addi a (broadcastInDim S4 ![] bcast_S_S4 (constantI S_ 32 14#32))) a))

/-- The one-hot rows of four words over the 14 classes, transposed to 14 x 4. -/
def oneHotT (v : S4.Idx → BitVec 32) : S14x4.Idx → EReal :=
  transpose S14x4 [1, 0]
    (uitofp (F := Ideal) .f32
      (cmpi .eq (broadcastInDim S4x14 ![0, 1] bcast_S4x1_S4x14_0_1 (broadcastInDim S4x1 ![0] bcast_S4_S4x1_0 v))
        (broadcastInDim S4x14 ![0, 1] bcast_S1x14_S4x14_0_1 (iotaInDim S1x14 32 1))))
    transposes_S4x14_S14x4_1_0

/-- The 8 x 8 identity, from two position arrays compared. -/
def eye8 : S8x8.Idx → EReal :=
  uitofp (F := Ideal) .f32
    (cmpi .eq (addi (iotaInDim S8x8 32 0) (broadcastInDim S8x8 ![] bcast_S_S8x8 (constantI S_ 32 0#32)))
      (iotaInDim S8x8 32 1))

/-- The Kronecker product of an 8 x 8 and a 14 x 4 matrix, laid out 112 x 32. -/
def kron (E : S8x8.Idx → EReal) (D : S14x4.Idx → EReal) : S112x32.Idx → EReal :=
  shapeCast S112x32
    (mulf (F := Ideal) (φ := .f32)
      (broadcastInDim S8x14x8x4 ![0, 1, 2, 3] bcast_S8x1x8x1_S8x14x8x4_0_1_2_3
        (broadcastInDim S8x1x8x1 ![0, 2] bcast_S8x8_S8x1x8x1_0_2 E))
      (broadcastInDim S8x14x8x4 ![0, 1, 2, 3] bcast_S1x14x1x4_S8x14x8x4_0_1_2_3
        (broadcastInDim S1x14x1x4 ![1, 3] bcast_S14x4_S1x14x1x4_1_3 D)))
    shapeCasts_S8x14x8x4_S112x32

/-! ### Words -/

/-- Clipping a word into 0..13 (the larger of it and 0, then the smaller of that and 13, compared signed) gives the
    word's signed value clamped into 0..13. -/
theorem clip_toNat (x : BitVec 32) :
    (IntOp.minsi 13#32 (IntOp.maxsi 0#32 x)).toNat = min x.toInt.toNat 13 := by
  have h0 : (0#32 : BitVec 32).toInt = 0 := by decide
  have h13 : (13#32 : BitVec 32).toInt = 13 := by decide
  have hx := BitVec.toInt_eq_toNat_cond x
  have hlt := x.isLt
  unfold IntOp.maxsi IntOp.minsi
  simp only [BitVec.slt, h0, h13, decide_eq_true_eq]
  by_cases h1 : x.toInt < 0
  · rw [if_pos h1, if_neg (by rw [h0]; omega)]
    show 0 = _
    omega
  · rw [if_neg h1]
    by_cases h2 : 13 < x.toInt
    · rw [if_pos h2]
      show 13 = _
      omega
    · rw [if_neg h2]
      split at hx <;> omega

/-- The clipped wrapped index is the word of class cc exactly when the specification's column is cc. -/
theorem clip_wrap_eq_iff (w : BitVec 32) (cc : Fin 14) :
    IntOp.minsi 13#32 (IntOp.maxsi 0#32 (wrap w)) = BitVec.ofNat 32 cc.val ↔ (col w).val = cc.val := by
  have hcc := cc.isLt
  rw [← BitVec.toNat_inj, clip_toNat, BitVec.toNat_ofNat, Nat.mod_eq_of_lt (by omega)]
  rfl

/-- A compare bit converted to a number is 1 or 0. -/
theorem uitofp_cmpi_eq {w : Nat} (x y : BitVec w) :
    (FloatOps.uitofp (F := Ideal) .f32 (IntOp.cmpi .eq x y) : EReal) = if x = y then (1 : EReal) else 0 := by
  by_cases h : x = y
  · rw [if_pos h, (StableHlo.Predicate.cmpi_eq_iff).mpr h]
    show (((1#1 : BitVec 1).toNat : ℝ) : EReal) = 1
    simp
  · rw [if_neg h, ValueIdx.eq_zero_of_ne_one (fun h1 => h (StableHlo.Predicate.cmpi_eq_iff.mp h1))]
    show (((0#1 : BitVec 1).toNat : ℝ) : EReal) = 0
    simp

/-! ### The stages read at an index -/

/-- The clipped wrapped index of constraint k. -/
theorem clipV_apply (a : S4.Idx → BitVec 32) (k : Fin 4) :
    clipV a (ix1 k) = IntOp.minsi 13#32 (IntOp.maxsi 0#32 (wrap (a (ix1 k)))) := rfl

/-- Entry (cc, k) of the transposed one-hot rows: 1 exactly when word k is the word of class cc. -/
theorem oneHotT_apply (v : S4.Idx → BitVec 32) (cc : Fin 14) (k : Fin 4) :
    oneHotT v (ix2 cc k) = if v (ix1 k) = BitVec.ofNat 32 cc.val then (1 : EReal) else 0 := by
  unfold oneHotT
  refine (transpose_apply [1, 0] _ transposes_S4x14_S14x4_1_0 (ix2 cc k) (ix2 k cc) ?_).trans ?_
  · intro b; match b with | ⟨0, _⟩ => rfl | ⟨1, _⟩ => rfl
  have e1 : broadcastInDim S4x14 ![0, 1] bcast_S4x1_S4x14_0_1 (broadcastInDim S4x1 ![0] bcast_S4_S4x1_0 v) (ix2 k cc)
      = v (ix1 k) := by
    refine (broadcastInDim_apply _ _ _ (ix2 k cc) (ix2 k (0 : Fin 1)) ?_).trans ?_
    · intro a; match a with | ⟨0, _⟩ => rfl | ⟨1, _⟩ => rfl
    refine broadcastInDim_apply _ _ _ (ix2 k (0 : Fin 1)) (ix1 k) ?_
    intro a; match a with | ⟨0, _⟩ => rfl
  have e2 : broadcastInDim S4x14 ![0, 1] bcast_S1x14_S4x14_0_1 (iotaInDim S1x14 32 1) (ix2 k cc)
      = BitVec.ofNat 32 cc.val := by
    refine (broadcastInDim_apply _ _ _ (ix2 k cc) (ix2 (0 : Fin 1) cc) ?_).trans rfl
    intro a; match a with | ⟨0, _⟩ => rfl | ⟨1, _⟩ => rfl
  show FloatOps.uitofp (F := Ideal) .f32 (IntOp.cmpi .eq
      (broadcastInDim S4x14 ![0, 1] bcast_S4x1_S4x14_0_1 (broadcastInDim S4x1 ![0] bcast_S4_S4x1_0 v) (ix2 k cc))
      (broadcastInDim S4x14 ![0, 1] bcast_S1x14_S4x14_0_1 (iotaInDim S1x14 32 1) (ix2 k cc))) = _
  rw [e1, e2, uitofp_cmpi_eq]

/-- Entry (g, g') of the identity. -/
theorem eye8_apply (g g' : Fin 8) : eye8 (ix2 g g') = if g.val = g'.val then (1 : EReal) else 0 := by
  have hg := g.isLt
  have hg' := g'.isLt
  show FloatOps.uitofp (F := Ideal) .f32 (IntOp.cmpi .eq (IntOp.addi (BitVec.ofNat 32 g.val) 0#32) (BitVec.ofNat 32 g'.val)) = _
  rw [uitofp_cmpi_eq]
  refine if_congr ?_ rfl rfl
  unfold IntOp.addi
  rw [BitVec.add_zero, ← BitVec.toNat_inj, BitVec.toNat_ofNat, BitVec.toNat_ofNat, Nat.mod_eq_of_lt (by omega),
    Nat.mod_eq_of_lt (by omega)]

/-- Entry (c', n) of the Kronecker product: the 8 x 8 factor at (c' / 14, n / 4) times the 14 x 4 factor at
    (c' % 14, n % 4). -/
theorem kron_apply (E : S8x8.Idx → EReal) (D : S14x4.Idx → EReal) (c' : Fin 112) (n : Fin 32) :
    kron E D (ix2 c' n)
      = E (ix2 (⟨c'.val / 14, by have := c'.isLt; omega⟩ : Fin 8) (⟨n.val / 4, by have := n.isLt; omega⟩ : Fin 8))
        * D (ix2 (⟨c'.val % 14, Nat.mod_lt _ (by decide)⟩ : Fin 14) (⟨n.val % 4, Nat.mod_lt _ (by decide)⟩ : Fin 4)) := by
  have hc := c'.isLt
  have hn := n.isLt
  unfold kron
  refine (shapeCast_apply _ shapeCasts_S8x14x8x4_S112x32 (ix2 c' n)
    (ix4 (⟨c'.val / 14, by omega⟩ : Fin 8) (⟨c'.val % 14, Nat.mod_lt _ (by decide)⟩ : Fin 14)
      (⟨n.val / 4, by omega⟩ : Fin 8) (⟨n.val % 4, Nat.mod_lt _ (by decide)⟩ : Fin 4)) ?_).trans ?_
  · rw [Shape.rowMajor_val_four, Shape.rowMajor_val_two]
    show ((c'.val / 14 * 14 + c'.val % 14) * 8 + n.val / 4) * 4 + n.val % 4 = c'.val * 32 + n.val
    omega
  refine (mulf_apply _ _ _).trans ?_
  congr 1
  · refine (broadcastInDim_apply _ _ _ _ (ix4 (⟨c'.val / 14, by omega⟩ : Fin 8) (0 : Fin 1)
      (⟨n.val / 4, by omega⟩ : Fin 8) (0 : Fin 1)) ?_).trans ?_
    · intro a; match a with | ⟨0, _⟩ => rfl | ⟨1, _⟩ => rfl | ⟨2, _⟩ => rfl | ⟨3, _⟩ => rfl
    refine broadcastInDim_apply _ _ _ _ _ ?_
    intro a; match a with | ⟨0, _⟩ => rfl | ⟨1, _⟩ => rfl
  · refine (broadcastInDim_apply _ _ _ _ (ix4 (0 : Fin 1) (⟨c'.val % 14, Nat.mod_lt _ (by decide)⟩ : Fin 14)
      (0 : Fin 1) (⟨n.val % 4, Nat.mod_lt _ (by decide)⟩ : Fin 4)) ?_).trans ?_
    · intro a; match a with | ⟨0, _⟩ => rfl | ⟨1, _⟩ => rfl | ⟨2, _⟩ => rfl | ⟨3, _⟩ => rfl
    refine broadcastInDim_apply _ _ _ _ _ ?_
    intro a; match a with | ⟨0, _⟩ => rfl | ⟨1, _⟩ => rfl

open Idealize.ShloMosaic.StableHlo in
set_option maxHeartbeats 4000000 in
/-- The selection matrix as the host's stages composed. -/
theorem v24_eq (c : Dev nD) :
    (V m c main_v24 : S112x32.Idx → EReal)
      = kron eye8 (subf (F := Ideal) (φ := .f32) (oneHotT (clipV (m ((c : Thread nD τ).loc main_arg2))))
          (oneHotT (clipV (m ((c : Thread nD τ).loc main_arg3))))) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results_simp
  rfl

end Selection

open Selection

/-- The selection matrix at (c', n). -/
theorem selection_apply (c : Dev nD) (c' : Fin 112) (n : Fin 32) :
    (V m c main_v24 : S112x32.Idx → EReal) (ix2 c' n)
      = selEntry (col (m ((c : Thread nD τ).loc main_arg2) (ix1 (⟨n.val % 4, Nat.mod_lt _ (by decide)⟩ : Fin 4))))
                 (col (m ((c : Thread nD τ).loc main_arg3) (ix1 (⟨n.val % 4, Nat.mod_lt _ (by decide)⟩ : Fin 4)))) c' n := by
  rw [v24_eq, kron_apply, eye8_apply]
  refine congrArg₂ (· * ·) rfl ?_
  refine (subf_apply _ _ _).trans ?_
  rw [oneHotT_apply, oneHotT_apply, clipV_apply, clipV_apply]
  refine congrArg₂ (· - ·) (if_congr ?_ rfl rfl) (if_congr ?_ rfl rfl)
  · exact clip_wrap_eq_iff _ (⟨c'.val % 14, Nat.mod_lt _ (by decide)⟩ : Fin 14)
  · exact clip_wrap_eq_iff _ (⟨c'.val % 14, Nat.mod_lt _ (by decide)⟩ : Fin 14)

end Cert.KernelIdeal.Prefix

end
-- ==== Proof.PrefixGrouping.lean ====
/-
  The grouping matrix the kernel's third window reads: the host tiles the 4 x 4 identity 8 times down, so entry
  (n, k) is 1 when n % 4 = k and 0 otherwise.
-/
import proofs.«423906_j23776938950698_4_alg».proof.Proof.Gen.KernelIdeal.Frame.Runs
import proofs.«423906_j23776938950698_4_alg».proof.Proof.Spec
import Idealize.ShloMosaic.Lib.Pipeline.Value
import Idealize.ShloMosaic.Lib.StableHlo.Run

noncomputable section

namespace Cert.KernelIdeal.Prefix

open Idealize.ShloMosaic Idealize.ShloMosaic.TcCoe Idealize.ShloMosaic.ValueIdx Idealize.SL.Sem
open Cert.KernelIdeal Cert.KernelIdeal.Gen Cert.Hier
open scoped BigOperators

variable (m : (ℓ : Loc nD τ sig) → Buf (Elt Ideal) ℓ)

/-- The 4 x 4 identity as the host forms it: row coordinate (plus zero) compared with column coordinate, the bit
    converted to a float. -/
def grouping_ident : S4x4.Idx → EReal :=
  (uitofp (F := Ideal) .f32
    (cmpi .eq (addi (iotaInDim S4x4 32 0) (broadcastInDim S4x4 ![] bcast_S_S4x4 (constantI S_ 32 0#32)))
      (iotaInDim S4x4 32 1)) : FVec Ideal S4x4 .f32)

/-- The grouping matrix is the identity recast to [1,4,1,4], repeated 8 times along the first axis, recast to [32,4]. -/
theorem grouping_eq (c : Dev nD) :
    (V m c main_v33 : S32x4.Idx → EReal)
      = shapeCast S32x4
          (broadcastInDim S8x4x1x4 ![0, 1, 2, 3] bcast_S1x4x1x4_S8x4x1x4_0_1_2_3
            (shapeCast S1x4x1x4 grouping_ident shapeCasts_S4x4_S1x4x1x4))
          shapeCasts_S8x4x1x4_S32x4 := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append]
  after_results; rfl

/-- The identity at (a, b). -/
theorem grouping_ident_apply (a b : Fin 4) : grouping_ident (ix2 a b) = if a.val = b.val then (1 : EReal) else 0 := by
  show (((IntOp.cmpi .eq (IntOp.addi (BitVec.ofNat 32 a.val) 0#32) (BitVec.ofNat 32 b.val)).toNat : ℝ) : EReal) = _
  have hadd : IntOp.addi (BitVec.ofNat 32 a.val) 0#32 = BitVec.ofNat 32 a.val := by
    show BitVec.ofNat 32 a.val + 0#32 = _
    simp
  rw [hadd]
  by_cases hab : a.val = b.val
  · have h1 : IntOp.cmpi .eq (BitVec.ofNat 32 a.val) (BitVec.ofNat 32 b.val) = 1#1 := by
      simp only [IntOp.cmpi, hab, beq_self_eq_true, BitVec.ofBool_true]
      rfl
    rw [if_pos hab, h1]
    simp
  · have hne : (BitVec.ofNat 32 a.val == BitVec.ofNat 32 b.val) = false := by
      rw [beq_eq_false_iff_ne]
      intro h
      have h' := congrArg BitVec.toNat h
      simp only [BitVec.toNat_ofNat] at h'
      have := a.isLt; have := b.isLt
      omega
    have h0 : IntOp.cmpi .eq (BitVec.ofNat 32 a.val) (BitVec.ofNat 32 b.val) = 0#1 := by
      simp only [IntOp.cmpi, hne, BitVec.ofBool_false]
      rfl
    rw [if_neg hab, h0]
    simp

/-- The grouping matrix at (n, k). -/
theorem grouping_apply (c : Dev nD) (n : Fin 32) (k : Fin 4) :
    (V m c main_v33 : S32x4.Idx → EReal) (ix2 n k) = grpEntry n k := by
  rw [grouping_eq]
  have hg : n.val / 4 < 8 := by have := n.isLt; omega
  have hr : n.val % 4 < 4 := Nat.mod_lt _ (by decide)
  refine (shapeCast_apply (s := S8x4x1x4) (t := S32x4) _ _ (ix2 n k)
    (ix4 (⟨n.val / 4, hg⟩ : Fin 8) (⟨n.val % 4, hr⟩ : Fin 4) (0 : Fin 1) k) ?_).trans ?_
  · rw [Shape.rowMajor_val_four, Shape.rowMajor_val_two]
    show ((n.val / 4 * 4 + n.val % 4) * 1 + 0) * 4 + k.val = n.val * 4 + k.val
    omega
  refine (broadcastInDim_apply (s := S1x4x1x4) (t := S8x4x1x4) _ _ _ _
    (ix4 (0 : Fin 1) (⟨n.val % 4, hr⟩ : Fin 4) (0 : Fin 1) k) ?_).trans ?_
  · intro a
    match a with
    | ⟨0, _⟩ => rfl
    | ⟨1, _⟩ => rfl
    | ⟨2, _⟩ => rfl
    | ⟨3, _⟩ => rfl
  refine (shapeCast_apply (s := S4x4) (t := S1x4x1x4) _ _ _ (ix2 (⟨n.val % 4, hr⟩ : Fin 4) k) ?_).trans ?_
  · rw [Shape.rowMajor_val_four, Shape.rowMajor_val_two]
    show n.val % 4 * 4 + k.val = ((0 * 4 + n.val % 4) * 1 + 0) * 4 + k.val
    omega
  rw [grouping_ident_apply]
  rfl

end Cert.KernelIdeal.Prefix

end
-- ==== Proof.KernelRun.lean ====
/-
  The kernel program's run, read: its result is the common tail of the four totals.

  After the region the host adds the two cores' rows of the [2,1,4] result array, drops the unit axis, and goes on as
  the reference does.  The two cores' totals of constraint k are the violations of the rows of all 50 tiles, and 50 tiles
  of 8 folded copies of 5,000 rows are all 2,000,000 table rows, each once.
-/
import proofs.«423906_j23776938950698_4_alg».proof.Proof.Accum
import proofs.«423906_j23776938950698_4_alg».proof.Proof.PrefixFolded
import proofs.«423906_j23776938950698_4_alg».proof.Proof.PrefixSelection
import proofs.«423906_j23776938950698_4_alg».proof.Proof.PrefixGrouping
import Idealize.ShloMosaic.Lib.Pipeline.Value
import Idealize.ShloMosaic.Lib.StableHlo.Run

noncomputable section

namespace Cert.KernelIdeal.Acc

open Idealize.ShloMosaic Idealize.ShloMosaic.TcCoe Idealize.ShloMosaic.ValueIdx Idealize.SL.Sem
open Idealize.ShloMosaic.Pipeline (Dat)
open Cert.KernelIdeal Cert.KernelIdeal.Gen Cert.Hier Cert.Lib.GcnAlgebra
open scoped BigOperators

variable (m : (ℓ : Loc nD τ sig) → Buf (Elt Ideal) ℓ) (ρ : Dev nD → PrngReg)

/-- The three arrays the region reads are what the host operations before it make of the arguments. -/
theorem prefixFacts (c : Dev nD) : PrefixFacts m c :=
  ⟨Cert.KernelIdeal.Prefix.folded_apply m c, Cert.KernelIdeal.Prefix.selection_apply m c, Cert.KernelIdeal.Prefix.grouping_apply m c⟩

theorem tail_eq (c : Dev nD) (hreal : ∀ i, IsReal (tbl m c i)) :
    Pipeline.afterTail₀ cfgs (dats m) 0 (V0 m) [hostOps1] c main_v42
      = tail bcast_S_S4 reducesTo_S4_S_d0 h_S_ (totals (tbl m c) (iws m c) (jws m c)) (m ((c : Thread nD τ).loc main_arg1)) := by
  unfold Pipeline.afterTail₀
  show StableHlo.after hostOps1 _ (Proc.devRef .tc main_v42) = _
  after_results
  -- the two buffers the tail reads: the result array after the region, and the temperature as launched
  have eA : Pipeline.withArrays (cfgs 0).spec c (V0 m c) (fun w => (dats m 0 c).arrAt w (cfgs 0).N) (Proc.devRef .tc main_v34)
      = result m c :=
    (Pipeline.withArrays_arr spec0 launch0.win.arr_inj c _ _ 3).trans (final_o m c (prefixFacts m c) hreal)
  have eT : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [eA, eT]
  show tail bcast_S_S4 reducesTo_S4_S_d0 h_S_
      (shapeCast S4 (Host.reduceAdd (F := Ideal) (result m c) (constant (F := Ideal) S_ .f32 0x00000000#32) reducesTo_S2x1x4_S1x4_d0 h_S_)
        shapeCasts_S1x4_S4) (m ((c : Thread nD τ).loc main_arg1)) = _
  refine congrArg (fun T => tail bcast_S_S4 reducesTo_S4_S_d0 h_S_ T (m ((c : Thread nD τ).loc main_arg1))) ?_
  funext i
  obtain ⟨k, rfl⟩ : ∃ k : Fin 4, i = ix1 k := ⟨i 0, eq_ix1 i⟩
  refine (shapeCast_apply _ _ (ix1 k) (ix2 (0 : Fin 1) k) ?_).trans ?_
  · rw [Shape.rowMajor_val_two, Shape.rowMajor_val_one]
    show (0 : ℕ) * 4 + k.val = k.val
    omega
  simp only [Host.reduceAdd, Ideal.hostReduceAdd_def]
  rw [Ideal.hostReduceAdd_single reducesTo_S2x1x4_S1x4_d0 (by decide)]
  rw [show (constant (F := Ideal) S_ .f32 0x00000000#32) (Shape.Idx.first h_S_) = (0 : EReal) from Ideal.ofBits_zero_f32, zero_add]
  -- the two cores' rows of the result array at column k
  show ∑ core : Fin 2, coreTotal m c core.val k = _
  unfold totals coreTotal
  rw [← sum_all_rows (fun row => viol (tbl m c) (col (iws m c (ix1 k))) (col (jws m c (ix1 k))) row)]
  refine Finset.sum_congr rfl fun core _ => ?_
  have hc := core.isLt
  rw [← Fin.sum_univ_eq_sum_range (fun s => partAt m c k (core.val * 25 + s)) 25]
  refine Finset.sum_congr rfl fun s _ => ?_
  have hs := s.isLt
  unfold partAt
  rw [dif_pos (by omega : core.val * 25 + s.val < 50)]
  rfl

/-- THE RUN, READ: every weakly fair execution of the kernel program terminates with its result at the common tail of the
    four totals, and its arguments unchanged. -/
theorem run (hreal : ∀ c i, IsReal (tbl m c i)) :
    θ_run defs (onTc (τ := τ) (main (F := Ideal))) ⟨m, fun _ => 0, ρ⟩ fun r => ∀ c : Dev nD,
      r.2.mem ((c.tc : Thread nD τ).loc main_v42)
          = tail bcast_S_S4 reducesTo_S4_S_d0 h_S_ (totals (tbl m c) (iws m c) (jws m c)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v42 (Pipeline.mem_restRefs_of main_v42 (by decide) (by decide))).trans (tail_eq m c (hreal c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Acc

end
-- ==== Proof.RefTotals.lean ====
/-
  The reference's four totals: its sum over the rows of the squared positive part of the difference of the two
  gathered columns is the specification's totals; a gather of whole columns by a column of start indices reads,
  at (row, k), the table at row `row` and the column the k-th start index picks, read signed and clamped.
-/
import proofs.«423906_j23776938950698_4_alg».proof.Proof.Gen.ReferenceIdeal.Read
import proofs.«423906_j23776938950698_4_alg».proof.Proof.Spec
import Idealize.ShloMosaic.Lib.ValueIdx

noncomputable section

namespace Cert.Hier.Ref

open Idealize.ShloMosaic Idealize.ShloMosaic.TcCoe Idealize.ShloMosaic.ValueIdx Idealize.SL.Sem
open Cert.ReferenceIdeal Cert.ReferenceIdeal.Gen Cert.Hier
open scoped BigOperators

/-- A gather of whole columns at (row, k): the table at row `row`, column the k-th start index read signed and
    clamped into 0..13. -/
theorem gather_cols_apply {α : Type} {w : Nat} (x : S2000000x14.Idx → α) (idx : IVec S4x1 w)
    (row : Fin 2000000) (k : Fin 4) :
    Host.gather gather_S2000000x14_S4x1_S2000000x4_0_1_n_n_1_1_20000001 x idx (ix2 row k)
      = x (ix2 row ⟨min (idx (ix2 k 0)).toInt.toNat 13, by omega⟩) := by
  unfold Host.gather
  congr 1
  funext a
  refine Fin.ext ?_
  match a with
  | ⟨0, _⟩ =>
    show GatherDims.start gather_S2000000x14_S4x1_S2000000x4_0_1_n_n_1_1_20000001 (ix2 row k) idx 0
        + GatherDims.batchCoord gather_S2000000x14_S4x1_S2000000x4_0_1_n_n_1_1_20000001 (ix2 row k) 0
        + GatherDims.offCoord gather_S2000000x14_S4x1_S2000000x4_0_1_n_n_1_1_20000001 (ix2 row k) 0 = row.val
    rw [GatherDims.batchCoord_eq_zero _ _ _ List.not_mem_nil]
    have h0 : (0 : Fin S2000000x14.rank) ∉
        (gather_S2000000x14_S4x1_S2000000x4_0_1_n_n_1_1_20000001).startIndexMap := by decide
    have hs : GatherDims.start gather_S2000000x14_S4x1_S2000000x4_0_1_n_n_1_1_20000001 (ix2 row k) idx 0 = 0 := by
      unfold GatherDims.start
      rw [dif_neg h0]
    rw [hs]
    have hk : (0 : Fin S2000000x14.rank) ∈
        (gather_S2000000x14_S4x1_S2000000x4_0_1_n_n_1_1_20000001).sKept := by decide
    unfold GatherDims.offCoord
    rw [dif_pos hk]
    simp only [Nat.zero_add]
    rfl
  | ⟨1, _⟩ =>
    show GatherDims.start gather_S2000000x14_S4x1_S2000000x4_0_1_n_n_1_1_20000001 (ix2 row k) idx 1
        + GatherDims.batchCoord gather_S2000000x14_S4x1_S2000000x4_0_1_n_n_1_1_20000001 (ix2 row k) 1
        + GatherDims.offCoord gather_S2000000x14_S4x1_S2000000x4_0_1_n_n_1_1_20000001 (ix2 row k) 1
        = min (idx (ix2 k 0)).toInt.toNat 13
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have h1 : (1 : Fin S2000000x14.rank) ∈
        (gather_S2000000x14_S4x1_S2000000x4_0_1_n_n_1_1_20000001).startIndexMap := List.mem_singleton.mpr rfl
    unfold GatherDims.start
    rw [dif_pos h1]
    have hsi : (gather_S2000000x14_S4x1_S2000000x4_0_1_n_n_1_1_20000001).siIdx (ix2 row k)
        ⟨List.idxOf (1 : Fin S2000000x14.rank) (gather_S2000000x14_S4x1_S2000000x4_0_1_n_n_1_1_20000001).startIndexMap,
          List.idxOf_lt_length_iff.2 h1⟩ = ix2 k 0 := by
      funext b; refine Fin.ext ?_
      match b with
      | ⟨0, _⟩ => rfl
      | ⟨1, _⟩ => rfl
    rw [hsi]
    rfl

/-- The wrapped word the reference forms from the first list of class indices. -/
theorem wrapped_left (x2 : IVec S4 32) (i : S4.Idx) :
    Cert.ReferenceIdeal.Read.val_main_v4 (F := Ideal) x2 i = wrap (x2 i) := by
  rw [Cert.ReferenceIdeal.Read.val_main_v4_apply, Cert.ReferenceIdeal.Read.val_main_v1_apply,
    Cert.ReferenceIdeal.Read.val_main_v3_apply, Cert.ReferenceIdeal.Read.val_main_v0_apply,
    Cert.ReferenceIdeal.Read.val_main_c_apply, Cert.ReferenceIdeal.Read.val_main_v2_apply,
    Cert.ReferenceIdeal.Read.val_main_c_0_apply]
  rfl

/-- The wrapped word the reference forms from the second list of class indices. -/
theorem wrapped_right (x3 : IVec S4 32) (i : S4.Idx) :
    Cert.ReferenceIdeal.Read.val_main_v11 (F := Ideal) x3 i = wrap (x3 i) := by
  rw [Cert.ReferenceIdeal.Read.val_main_v11_apply, Cert.ReferenceIdeal.Read.val_main_v8_apply,
    Cert.ReferenceIdeal.Read.val_main_v10_apply, Cert.ReferenceIdeal.Read.val_main_v7_apply,
    Cert.ReferenceIdeal.Read.val_main_c_1_apply, Cert.ReferenceIdeal.Read.val_main_v9_apply,
    Cert.ReferenceIdeal.Read.val_main_c_2_apply]
  rfl

/-- The first column of start indices at (k, 0) is the k-th first class index, wrapped. -/
theorem starts_left (x2 : IVec S4 32) (k : Fin 4) :
    Cert.ReferenceIdeal.Read.val_main_v5 (F := Ideal) x2 (ix2 k (0 : Fin 1)) = wrap (x2 (ix1 k)) := by
  have hi : Cert.ReferenceIdeal.Read.idx_main_v5 (ix2 k (0 : Fin 1)) = ix1 k := by
    funext a; match a with | ⟨0, _⟩ => rfl
  rw [Cert.ReferenceIdeal.Read.val_main_v5_apply, hi, wrapped_left]

/-- The second column of start indices at (k, 0) is the k-th second class index, wrapped. -/
theorem starts_right (x3 : IVec S4 32) (k : Fin 4) :
    Cert.ReferenceIdeal.Read.val_main_v12 (F := Ideal) x3 (ix2 k (0 : Fin 1)) = wrap (x3 (ix1 k)) := by
  have hi : Cert.ReferenceIdeal.Read.idx_main_v12 (ix2 k (0 : Fin 1)) = ix1 k := by
    funext a; match a with | ⟨0, _⟩ => rfl
  rw [Cert.ReferenceIdeal.Read.val_main_v12_apply, hi, wrapped_right]

/-- The first gathered array at (row, k) is the table at row `row`, the column the k-th first class index picks. -/
theorem gathered_left (x0 : FVec Ideal S2000000x14 .f32) (x2 : IVec S4 32) (row : Fin 2000000) (k : Fin 4) :
    Cert.ReferenceIdeal.Read.val_main_v6 (F := Ideal) x0 x2 (ix2 row k) = x0 (ix2 row (col (x2 (ix1 k)))) := by
  unfold Cert.ReferenceIdeal.Read.val_main_v6
  refine (gather_cols_apply x0 _ row k).trans ?_
  refine congrArg (fun c : Fin 14 => x0 (ix2 row c)) (Fin.ext ?_)
  show min (Cert.ReferenceIdeal.Read.val_main_v5 (F := Ideal) x2 (ix2 k (0 : Fin 1))).toInt.toNat 13
    = min (wrap (x2 (ix1 k))).toInt.toNat 13
  rw [starts_left]

/-- The second gathered array at (row, k) is the table at row `row`, the column the k-th second class index picks. -/
theorem gathered_right (x0 : FVec Ideal S2000000x14 .f32) (x3 : IVec S4 32) (row : Fin 2000000) (k : Fin 4) :
    Cert.ReferenceIdeal.Read.val_main_v13 (F := Ideal) x0 x3 (ix2 row k) = x0 (ix2 row (col (x3 (ix1 k)))) := by
  unfold Cert.ReferenceIdeal.Read.val_main_v13
  refine (gather_cols_apply x0 _ row k).trans ?_
  refine congrArg (fun c : Fin 14 => x0 (ix2 row c)) (Fin.ext ?_)
  show min (Cert.ReferenceIdeal.Read.val_main_v12 (F := Ideal) x3 (ix2 k (0 : Fin 1))).toInt.toNat 13
    = min (wrap (x3 (ix1 k))).toInt.toNat 13
  rw [starts_right]

/-- The reference's reduced vector (the sum over rows from the zero) is the four totals. -/
theorem totals_eq (x0 : FVec Ideal S2000000x14 .f32) (x2 x3 : IVec S4 32) :
    Cert.ReferenceIdeal.Read.val_main_v17 (F := Ideal) x0 x2 x3 = totals x0 x2 x3 := by
  refine funext fun (i : S4.Idx) => ?_
  obtain ⟨k, rfl⟩ : ∃ k : Fin 4, i = ix1 k := ⟨i 0, eq_ix1 i⟩
  rw [Cert.ReferenceIdeal.Read.val_main_v17_apply, Cert.ReferenceIdeal.Read.val_main_cst_apply,
    Ideal.ofBits_def, Ideal.ofBits_zero_f32, zero_add]
  unfold totals
  refine Finset.sum_congr rfl fun row _ => ?_
  have hj : Cert.ReferenceIdeal.Read.idx_main_v17 (ix1 k) row = ix2 row k := by
    funext a; match a with | ⟨0, _⟩ => rfl | ⟨1, _⟩ => rfl
  rw [hj, Cert.ReferenceIdeal.Read.val_main_v16_apply, Cert.ReferenceIdeal.Read.val_main_v15_apply,
    Cert.ReferenceIdeal.Read.val_main_v14_apply, Cert.ReferenceIdeal.Read.val_main_call0_v0_apply,
    Cert.ReferenceIdeal.Read.val_main_call0_cst_apply, gathered_left, gathered_right,
    Ideal.ofBits_def, Ideal.ofBits_zero_f32, Ideal.mulf_def, Ideal.maximumf_def, Ideal.subf_def]
  rfl

end Cert.Hier.Ref

end
-- ==== Proof.RefRun.lean ====
/-
  The reference program's result is the common tail of the four totals: after its sum over the rows it divides by
  2,000,000 and by the temperature, adds the four quotients and divides by 4, which is the tail as stated.
-/
import proofs.«423906_j23776938950698_4_alg».proof.Proof.RefTotals

noncomputable section

namespace Cert.Hier.Ref

open Idealize.ShloMosaic Idealize.ShloMosaic.TcCoe Idealize.ShloMosaic.ValueIdx Idealize.SL.Sem
open Cert.ReferenceIdeal Cert.ReferenceIdeal.Gen Cert.Hier

/-- The reference's last stage is the tail of its reduced vector, which is the four totals. -/
theorem result_eq (x0 : FVec Ideal S2000000x14 .f32) (x1 : FVec Ideal S_ .f32) (x2 x3 : IVec S4 32) :
    Cert.ReferenceIdeal.Read.val_main_v23 (F := Ideal) x0 x1 x2 x3
      = tail bcast_S_S4 reducesTo_S4_S_d0 h_S_ (totals x0 x2 x3) x1 := by
  rw [← totals_eq]
  rfl

end Cert.Hier.Ref

end
-- ==== Proof.Finite.lean ====
/-
  Under the precondition every entry of the table is a real number: the precondition says the absolute value of every
  table entry is below +infinity (and the same of the temperature), which on the extended reals leaves the reals.
-/
import proofs.«423906_j23776938950698_4_alg».proof.Proof.Gen.Pre_finite_inputs
import proofs.«423906_j23776938950698_4_alg».proof.Proof.LibGcnAlgebra
import Idealize.ShloMosaic.Lib.ValueIdx
import Idealize.ShloMosaic.Lib.ReduceAll
import Idealize.ShloMosaic.PureOps.Ideal.Laws

noncomputable section

namespace Cert.Hier

open Idealize.ShloMosaic Idealize.ShloMosaic.ValueIdx Cert.Lib.GcnAlgebra
open Cert.Pre_finite_inputs

/-- The shape with no axes has exactly one index. -/
private instance subsingleton_scalar_idx : Subsingleton S_.Idx := ⟨fun a b => funext fun d => d.elim0⟩

/-- The word 0x7F800000 denotes +infinity. -/
private theorem inf_word : Ideal.ofBits .f32 0x7F800000#32 = (⊤ : EReal) := by
  simp [Ideal.ofBits, Ideal.ieee]

/-- An extended real whose absolute value max x (-x) is strictly below +infinity is a real number: both infinities
    have absolute value +infinity. -/
private theorem isReal_of_abs_lt_top (x : EReal) (h : max x (-x) < (⊤ : EReal)) : IsReal x := by
  induction x using EReal.rec with
  | bot => simp at h
  | coe r => exact ⟨r, rfl⟩
  | top => simp at h

/-- The precondition, all ones, makes every table entry real. -/
theorem real_of_pre (x0 : FVec Ideal S2000000x14 .f32) (x1 : FVec Ideal S_ .f32) (x2 x3 : IVec S4 32)
    (h : Cert.Pre_finite_inputs.fn (F := Ideal) x0 x1 x2 x3 = fun _ => 1#1) : ∀ i, IsReal (x0 i) := by
  intro i
  -- the one-bit result read at its only index
  have h0 := congrFun h ValueIdx.ix0
  unfold Cert.Pre_finite_inputs.fn at h0
  dsimp only at h0
  -- the conjunction's first half is the all-reduction over the table
  obtain ⟨h1, _⟩ := IntOp.andi_eq_one.1 h0
  -- so the comparison holds at every entry, in particular at i
  have h2 := Host.reduce_andi_all _ _ _ _ _ h1 i
  -- the comparison at i says |x0 i| < +infinity
  have h3 : Ideal.cmp .olt (max (x0 i) (-(x0 i))) (Ideal.ofBits .f32 0x7F800000#32) = 1#1 := h2
  rw [inf_word] at h3
  refine isReal_of_abs_lt_top (x0 i) ?_
  by_contra hn
  simp [Ideal.cmp, hn] at h3

end Cert.Hier

end
-- ==== Proof.lean ====
/-
  A hierarchical-consistency loss, kernel against reference, over the extended reals.

  Input: a table p of 2,000,000 rows of 14 class probabilities, a temperature, and two lists of four class indices
  i and j.  Constraint k asks that class i_k be no more probable than class j_k; a row violates it by the squared
  positive part of p[row, i_k] - p[row, j_k].  The loss is the mean over the rows of each constraint's violations,
  divided by the temperature, averaged over the four constraints.

  The reference gathers the two columns of each constraint (a class index read as Python reads it, then clamped into
  0..13 as a gather clamps), subtracts, squares the positive part, and sums over the rows.  The kernel folds 8 table
  rows into one row of 112, and on each of two cores walks 25 tiles of 5,000 folded rows: it multiplies a tile by a
  112 x 32 matrix of entries +1, -1 and 0 that forms, inside each folded copy, class i_k minus class j_k (the same
  wrapped and clamped classes, as one-hot rows), squares the positive parts, sums the tile's rows, adds the 8 folded
  copies of a constraint by a 32 x 4 matrix of zeros and ones, and accumulates per core; the host adds the two cores.

  Both are the same sum, each table row counted once: row = 8 (5000 tile + r) + copy.  A product with the selection
  matrix is class i_k minus class j_k because the table is real under the precondition (when i_k = j_k the entry is
  1 - 1, and x - x = 0 needs x real); everything else is re-indexing of finite sums, which the extended reals allow
  freely.  From the four totals on, the two programs apply the same operations to the same numbers.

  The three frames are the generated ones (the reference's is its generated run with the result dropped); the
  idealization rewrote nothing, so preserves is trivial.
-/
import proofs.«423906_j23776938950698_4_alg».proof.Defs
import proofs.«423906_j23776938950698_4_alg».proof.Proof.Gen.Kernel
import proofs.«423906_j23776938950698_4_alg».proof.Proof.Gen.Kernel.Skeleton
import proofs.«423906_j23776938950698_4_alg».proof.Proof.Gen.Kernel.Launch
import proofs.«423906_j23776938950698_4_alg».proof.Proof.Gen.Kernel.Points
import proofs.«423906_j23776938950698_4_alg».proof.Proof.Gen.Kernel.Frame
import proofs.«423906_j23776938950698_4_alg».proof.Proof.Gen.KernelIdeal
import proofs.«423906_j23776938950698_4_alg».proof.Proof.Gen.KernelIdeal.Skeleton
import proofs.«423906_j23776938950698_4_alg».proof.Proof.Gen.KernelIdeal.Launch
import proofs.«423906_j23776938950698_4_alg».proof.Proof.Gen.KernelIdeal.Points
import proofs.«423906_j23776938950698_4_alg».proof.Proof.Gen.KernelIdeal.Frame
import proofs.«423906_j23776938950698_4_alg».proof.Proof.Gen.ReferenceIdeal
import proofs.«423906_j23776938950698_4_alg».proof.Proof.Gen.Pre_finite_inputs
import proofs.«423906_j23776938950698_4_alg».proof.Proof.Gen.ReferenceIdeal.Run
import proofs.«423906_j23776938950698_4_alg».proof.Proof.Gen.ReferenceIdeal.Read
import proofs.«423906_j23776938950698_4_alg».proof.Proof.KernelRun
import proofs.«423906_j23776938950698_4_alg».proof.Proof.RefRun
import proofs.«423906_j23776938950698_4_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common tail of the four totals of arguments that agree; the table is real under the
    precondition, which is what the kernel's selection product needs. -/
theorem algebraic : Cert.algebraic_KernelIdeal_ReferenceIdeal := by
  intro m ρ m' ρ' hpre hagree
  have hreal : ∀ c i, Cert.Lib.GcnAlgebra.IsReal (Cert.KernelIdeal.Acc.tbl m c i) :=
    fun c => Cert.Hier.real_of_pre _ _ _ _ (hpre c)
  refine ⟨_, Cert.KernelIdeal.Acc.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v23_eq _ _ _ _).trans (Cert.Hier.Ref.result_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
